-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1 : Shape := ⟨2, ![2048, 1]⟩
abbrev S4096x4096 : Shape := ⟨2, ![4096, 4096]⟩
abbrev S4096x1 : Shape := ⟨2, ![4096, 1]⟩
abbrev S4096x2048 : Shape := ⟨2, ![4096, 2048]⟩
abbrev S1x2048 : Shape := ⟨2, ![1, 2048]⟩
abbrev S1 : Shape := ⟨1, ![1]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S1x2048 .f32) (main_arg12 : FVec F S1 .f32) (main_arg13 : FVec F S1x2048 .f32) (main_arg14 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x2048 .f32 := Host.absf main_arg11
  let main_cst_20 : FVec F S_ .f32 := constant S_ .f32 0x7F800000#32
  let main_v55 : FVec F S1x2048 .f32 := broadcastInDim S1x2048 ![] bcast_S_S1x2048 main_cst_20
  let main_v56 : IVec S1x2048 1 := cmpf .olt main_v54 main_v55
  let main_c_21 : IVec S_ 1 := constantI S_ 1 1#1
  let main_v57 : IVec S_ 1 := (fun x v => Host.reduce IntOp.andi x v reducesTo_S1x2048_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x2048 .f32 := Host.absf main_arg13
  let main_cst_24 : FVec F S_ .f32 := constant S_ .f32 0x7F800000#32
  let main_v65 : FVec F S1x2048 .f32 := broadcastInDim S1x2048 ![] bcast_S_S1x2048 main_cst_24
  let main_v66 : IVec S1x2048 1 := cmpf .olt main_v64 main_v65
  let main_c_25 : IVec S_ 1 := constantI S_ 1 1#1
  let main_v67 : IVec S_ 1 := (fun x v => Host.reduce IntOp.andi x v reducesTo_S1x2048_S_d0_1 h_S_) main_v66 main_c_25
  fn_part4 (F := F) main_arg14 main_v63 main_v67

def fn_part2 {F : FTy → Type} [FloatOps F] (main_arg7 : FVec F S4096x2048 .f32) (main_arg8 : FVec F S4096x1 .f32) (main_arg9 : FVec F S1x2048 .f32) (main_arg10 : FVec F S1 .f32) (main_arg11 : FVec F S1x2048 .f32) (main_arg12 : FVec F S1 .f32) (main_arg13 : FVec F S1x2048 .f32) (main_arg14 : FVec F S1 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_v48 main_v49 main_v50

def fn_part1 {F : FTy → Type} [FloatOps F] (main_arg4 : FVec F S4096x1 .f32) (main_arg5 : FVec F S4096x2048 .f32) (main_arg6 : FVec F S4096x1 .f32) (main_arg7 : FVec F S4096x2048 .f32) (main_arg8 : FVec F S4096x1 .f32) (main_arg9 : FVec F S1x2048 .f32) (main_arg10 : FVec F S1 .f32) (main_arg11 : FVec F S1x2048 .f32) (main_arg12 : FVec F S1 .f32) (main_arg13 : FVec F S1x2048 .f32) (main_arg14 : FVec F S1 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096x1 .f32 := Host.absf main_arg6
  let main_cst_10 : FVec F S_ .f32 := constant S_ .f32 0x7F800000#32
  let main_v30 : FVec F S4096x1 .f32 := broadcastInDim S4096x1 ![] bcast_S_S4096x1 main_cst_10
  let main_v31 : IVec S4096x1 1 := cmpf .olt main_v29 main_v30
  let main_c_11 : IVec S_ 1 := constantI S_ 1 1#1
  let main_v32 : IVec S_ 1 := (fun x v => Host.reduce IntOp.andi x v reducesTo_S4096x1_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x1 .f32) (main_arg1 : FVec F S4096x4096 .f32) (main_arg2 : FVec F S4096x1 .f32) (main_arg3 : FVec F S4096x2048 .f32) (main_arg4 : FVec F S4096x1 .f32) (main_arg5 : FVec F S4096x2048 .f32) (main_arg6 : FVec F S4096x1 .f32) (main_arg7 : FVec F S4096x2048 .f32) (main_arg8 : FVec F S4096x1 .f32) (main_arg9 : FVec F S1x2048 .f32) (main_arg10 : FVec F S1 .f32) (main_arg11 : FVec F S1x2048 .f32) (main_arg12 : FVec F S1 .f32) (main_arg13 : FVec F S1x2048 .f32) (main_arg14 : FVec F S1 .f32) : IVec S_ 1 :=
  let main_v0 : FVec F S2048x1 .f32 := Host.absf main_arg0
  let main_cst : FVec F S_ .f32 := constant S_ .f32 0x7F800000#32
  let main_v1 : FVec F S2048x1 .f32 := broadcastInDim S2048x1 ![] bcast_S_S2048x1 main_cst
  let main_v2 : IVec S2048x1 1 := cmpf .olt main_v0 main_v1
  let main_c : IVec S_ 1 := constantI S_ 1 1#1
  let main_v3 : IVec S_ 1 := (fun x v => Host.reduce IntOp.andi x v reducesTo_S2048x1_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2048x1 : Shape := ⟨2, ![2048, 1]⟩
abbrev S4096x4096 : Shape := ⟨2, ![4096, 4096]⟩
abbrev S4096x1 : Shape := ⟨2, ![4096, 1]⟩
abbrev S4096x2048 : Shape := ⟨2, ![4096, 2048]⟩
abbrev S1x2048 : Shape := ⟨2, ![1, 2048]⟩
abbrev S1 : Shape := ⟨1, ![1]⟩
abbrev S1x1 : Shape := ⟨2, ![1, 1]⟩
abbrev S_ : Shape := ⟨0, ![]⟩
abbrev S1x4096 : Shape := ⟨2, ![1, 4096]⟩
abbrev S512x2048 : Shape := ⟨2, ![512, 2048]⟩
abbrev S512x1 : Shape := ⟨2, ![512, 1]⟩
abbrev S256x4096 : Shape := ⟨2, ![256, 4096]⟩
abbrev S256x1 : Shape := ⟨2, ![256, 1]⟩
abbrev S256 : Shape := ⟨1, ![256]⟩

abbrev nBuf : Space → Nat
  | .hbm => 54
  | .vmem => 39
  | .smem => 0
  | _ => 0

abbrev bufTy : (tb : Table) → Fin (tcTables nBuf tb) → BufTy
  | .hbm, ⟨0, _⟩ => ⟨S2048x1, .f32⟩
  | .hbm, ⟨1, _⟩ => ⟨S4096x4096, .f32⟩
  | .hbm, ⟨2, _⟩ => ⟨S4096x1, .f32⟩
  | .hbm, ⟨3, _⟩ => ⟨S4096x2048, .f32⟩
  | .hbm, ⟨4, _⟩ => ⟨S4096x1, .f32⟩
  | .hbm, ⟨5, _⟩ => ⟨S4096x2048, .f32⟩
  | .hbm, ⟨6, _⟩ => ⟨S4096x1, .f32⟩
  | .hbm, ⟨7, _⟩ => ⟨S4096x2048, .f32⟩
  | .hbm, ⟨8, _⟩ => ⟨S4096x1, .f32⟩
  | .hbm, ⟨9, _⟩ => ⟨S1x2048, .f32⟩
  | .hbm, ⟨10, _⟩ => ⟨S1, .f32⟩
  | .hbm, ⟨11, _⟩ => ⟨S1x2048, .f32⟩
  | .hbm, ⟨12, _⟩ => ⟨S1, .f32⟩
  | .hbm, ⟨13, _⟩ => ⟨S1x2048, .f32⟩
  | .hbm, ⟨14, _⟩ => ⟨S1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S1x4096, .f32⟩
  | .hbm, ⟨38, _⟩ => ⟨S1x4096, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x1, .f32⟩
  | .hbm, ⟨51, _⟩ => ⟨S4096x4096, .f32⟩
  | .hbm, ⟨52, _⟩ => ⟨S4096x1, .f32⟩
  | .hbm, ⟨53, _⟩ => ⟨S4096x1, .f32⟩
  | .local _ .vmem, ⟨0, _⟩ => ⟨S2048x1, .f32⟩
  | .local _ .vmem, ⟨1, _⟩ => ⟨S512x2048, .f32⟩
  | .local _ .vmem, ⟨2, _⟩ => ⟨S512x2048, .f32⟩
  | .local _ .vmem, ⟨3, _⟩ => ⟨S512x1, .f32⟩
  | .local _ .vmem, ⟨4, _⟩ => ⟨S512x1, .f32⟩
  | .local _ .vmem, ⟨5, _⟩ => ⟨S512x2048, .f32⟩
  | .local _ .vmem, ⟨6, _⟩ => ⟨S512x2048, .f32⟩
  | .local _ .vmem, ⟨7, _⟩ => ⟨S512x1, .f32⟩
  | .local _ .vmem, ⟨8, _⟩ => ⟨S512x1, .f32⟩
  | .local _ .vmem, ⟨9, _⟩ => ⟨S512x2048, .f32⟩
  | .local _ .vmem, ⟨10, _⟩ => ⟨S512x2048, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S256x4096, .f32⟩
  | .local _ .vmem, ⟨20, _⟩ => ⟨S256x4096, .f32⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S1x4096, .f32⟩
  | .local _ .vmem, ⟨26, _⟩ => ⟨S1x4096, .f32⟩
  | .local _ .vmem, ⟨27, _⟩ => ⟨S256x1, .f32⟩
  | .local _ .vmem, ⟨28, _⟩ => ⟨S256x1, .f32⟩
  | .local _ .vmem, ⟨29, _⟩ => ⟨S1x1, .f32⟩
  | .local _ .vmem, ⟨30, _⟩ => ⟨S1x1, .f32⟩
  | .local _ .vmem, ⟨31, _⟩ => ⟨S1x1, .f32⟩
  | .local _ .vmem, ⟨32, _⟩ => ⟨S1x1, .f32⟩
  | .local _ .vmem, ⟨33, _⟩ => ⟨S256x4096, .f32⟩
  | .local _ .vmem, ⟨34, _⟩ => ⟨S256x4096, .f32⟩
  | .local _ .vmem, ⟨35, _⟩ => ⟨S256x1, .f32⟩
  | .local _ .vmem, ⟨36, _⟩ => ⟨S256x1, .f32⟩
  | .local _ .vmem, ⟨37, _⟩ => ⟨S256x1, .f32⟩
  | .local _ .vmem, ⟨38, _⟩ => ⟨S256x1, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst : Ref sig .tc := ⟨.hbm, 28, rfl⟩
abbrev main_call0_v13 : Ref sig .tc := ⟨.hbm, 29, rfl⟩
abbrev main_call0_v14 : Ref sig .tc := ⟨.hbm, 30, rfl⟩
abbrev main_call0_cst_0 : Ref sig .tc := ⟨.hbm, 31, rfl⟩
abbrev main_call0_v15 : Ref sig .tc := ⟨.hbm, 32, rfl⟩
abbrev main_call0_v16 : Ref sig .tc := ⟨.hbm, 33, rfl⟩
abbrev main_call0_v17_0 : Ref sig .tc := ⟨.hbm, 34, rfl⟩
abbrev main_call0_v17_1 : Ref sig .tc := ⟨.hbm, 35, rfl⟩
abbrev main_call0_v17_2 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_cst_1 : Ref sig .tc := ⟨.hbm, 45, rfl⟩
abbrev main_call0_v26 : Ref sig .tc := ⟨.hbm, 46, rfl⟩
abbrev main_call0_v27 : Ref sig .tc := ⟨.hbm, 47, rfl⟩
abbrev main_call0_cst_2 : Ref sig .tc := ⟨.hbm, 48, rfl⟩
abbrev main_call0_v28 : Ref sig .tc := ⟨.hbm, 49, rfl⟩
abbrev main_call0_v29 : Ref sig .tc := ⟨.hbm, 50, rfl⟩
abbrev main_v0_1 : Ref sig .tc := ⟨.hbm, 51, rfl⟩
abbrev main_v0_2 : Ref sig .tc := ⟨.hbm, 52, rfl⟩
abbrev main_v0_0 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_stg12_1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem5_1 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem10_1 : DmaSem sig := 34
abbrev cc1_sem11_0 : DmaSem sig := 35
abbrev cc1_sem11_1 : DmaSem sig := 36
abbrev cc1_sem12_0 : DmaSem sig := 37
abbrev cc1_sem12_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S1_S1x1_1 : S1.BroadcastsInDim S1x1 (![1] : Fin 1 → Fin S1x1.rank)
  bcast_S_S1x1 : S_.BroadcastsInDim S1x1 (![] : Fin 0 → Fin S1x1.rank)
  shapeCasts_S4096x1_S1x4096 : S4096x1.ShapeCasts S1x4096
  bcast_S1x1_S4096x1_0_1 : S1x1.BroadcastsInDim S4096x1 (![0, 1] : Fin 2 → Fin S4096x1.rank)
  reducesTo_S4096x1_S_d0_1 : S4096x1.ReducesTo [0, 1] S_
  h_S_ : 0 < S_.numel
  shapeCasts_S_S1x1 : S_.ShapeCasts S1x1
  inb_S2048x1_S2048x1_0_0 : ∀ a, (![0, 0] : Fin 2 → Nat) a + S2048x1.size a ≤ S2048x1.size a
  h_S2048x1 : 0 < S2048x1.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  broadcasts_S1x1_S256x4096 : S1x1.Broadcasts S256x4096
  reduces_S256x4096_S256 : S256x4096.Reduces [1] S256
  shapeCasts_S256_S256x1 : S256.ShapeCasts S256x1
  broadcasts_S1x1_S256x1 : S1x1.Broadcasts S256x1
  dot_S1x2048_S2048x1_S1x1_1_0_0_1_n_n_wf : DotDims.WF S1x2048 S2048x1 S1x1 [1] [0] [0] [1] [] []
  dot_S512x2048_S2048x1_S512x1_1_0_0_1_n_n_wf : DotDims.WF S512x2048 S2048x1 S512x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S2048x1.size a
  hwx0_0 : ∀ i : grid0.Coords, EltTy.bits .f32 = 32 ∨ (Rect.block (s := S2048x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .f32 = 32 ∨ (Rect.block (s := S4096x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .f32 = 32 ∨ (Rect.block (s := S4096x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S4096x1.size a
  hwx0_9 : ∀ i : grid0.Coords, EltTy.bits .f32 = 32 ∨ (Rect.block (s := S4096x1) S512x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S4096x1.size a
  hwx1_1 : ∀ i : grid1.Coords, EltTy.bits .f32 = 32 ∨ (Rect.block (s := S4096x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .f32 = 32 ∨ (Rect.block (s := S4096x1) S256x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x4096.size a ≤ S4096x4096.size a
  hwx1_10 : ∀ i : grid1.Coords, EltTy.bits .f32 = 32 ∨ (Rect.block (s := S4096x4096) S256x4096.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S256x1.size a ≤ S4096x1.size a
  hwx1_11 : ∀ i : grid1.Coords, EltTy.bits .f32 = 32 ∨ (Rect.block (s := S4096x1) S256x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S256x1.size a ≤ S4096x1.size a
  hwx1_12 : ∀ i : grid1.Coords, EltTy.bits .f32 = 32 ∨ (Rect.block (s := S4096x1) S256x1.size (cc1_transform_12 i) (hinb1_12 i)).WholeWords (EltTy.packing .f32)

variable [Facts₀]

def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf
def dot_S512x2048_S2048x1_S512x1_1_0_0_1_n_n : DotDims S512x2048 S2048x1 S512x1 where
  lhsContracting := [1]
  rhsContracting := [0]
  lhsNonContracting := [0]
  rhsNonContracting := [1]
  lhsBatch := []
  rhsBatch := []
  wf := dot_S512x2048_S2048x1_S512x1_1_0_0_1_n_n_wf

abbrev win0_0 : Pipeline.Window sig grid0 :=
  Pipeline.Window.ofSpec (Memref.whole main_arg0) S2048x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v17_0) S512x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v17_1) S512x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v17_2) S512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17_2) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v17_1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v18) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v19) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v3) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v7) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v16) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v29) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v0_1) S256x4096.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v0_2) S256x1.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v0_0) S256x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S2048x1 : Shape := ⟨2, ![2048, 1]⟩
abbrev S4096x4096 : Shape := ⟨2, ![4096, 4096]⟩
abbrev S4096x1 : Shape := ⟨2, ![4096, 1]⟩
abbrev S4096x2048 : Shape := ⟨2, ![4096, 2048]⟩
abbrev S1x2048 : Shape := ⟨2, ![1, 2048]⟩
abbrev S1 : Shape := ⟨1, ![1]⟩
abbrev S_ : Shape := ⟨0, ![]⟩
abbrev S1x1 : Shape := ⟨2, ![1, 1]⟩
abbrev S4096 : Shape := ⟨1, ![4096]⟩
abbrev S1x4096 : Shape := ⟨2, ![1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S2048x1, .f32⟩
  | .hbm, ⟨1, _⟩ => ⟨S4096x4096, .f32⟩
  | .hbm, ⟨2, _⟩ => ⟨S4096x1, .f32⟩
  | .hbm, ⟨3, _⟩ => ⟨S4096x2048, .f32⟩
  | .hbm, ⟨4, _⟩ => ⟨S4096x1, .f32⟩
  | .hbm, ⟨5, _⟩ => ⟨S4096x2048, .f32⟩
  | .hbm, ⟨6, _⟩ => ⟨S4096x1, .f32⟩
  | .hbm, ⟨7, _⟩ => ⟨S4096x2048, .f32⟩
  | .hbm, ⟨8, _⟩ => ⟨S4096x1, .f32⟩
  | .hbm, ⟨9, _⟩ => ⟨S1x2048, .f32⟩
  | .hbm, ⟨10, _⟩ => ⟨S1, .f32⟩
  | .hbm, ⟨11, _⟩ => ⟨S1x2048, .f32⟩
  | .hbm, ⟨12, _⟩ => ⟨S1, .f32⟩
  | .hbm, ⟨13, _⟩ => ⟨S1x2048, .f32⟩
  | .hbm, ⟨14, _⟩ => ⟨S1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S4096, .f32⟩
  | .hbm, ⟨33, _⟩ => ⟨S4096, .f32⟩
  | .hbm, ⟨34, _⟩ => ⟨S4096x4096, .f32⟩
  | .hbm, ⟨35, _⟩ => ⟨S4096x4096, .f32⟩
  | .hbm, ⟨36, _⟩ => ⟨S4096x1, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S1x4096, .f32⟩
  | .hbm, ⟨51, _⟩ => ⟨S1x1, .f32⟩
  | .hbm, ⟨52, _⟩ => ⟨S1x1, .f32⟩
  | .hbm, ⟨53, _⟩ => ⟨S_, .f32⟩
  | .hbm, ⟨54, _⟩ => ⟨S1x1, .f32⟩
  | .hbm, ⟨55, _⟩ => ⟨S1x1, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S1x1, .f32⟩
  | .hbm, ⟨60, _⟩ => ⟨S1x1, .f32⟩
  | .hbm, ⟨61, _⟩ => ⟨S1x1, .f32⟩
  | .hbm, ⟨62, _⟩ => ⟨S1x1, .f32⟩
  | .hbm, ⟨63, _⟩ => ⟨S1x1, .f32⟩
  | .hbm, ⟨64, _⟩ => ⟨S_, .f32⟩
  | .hbm, ⟨65, _⟩ => ⟨S1x1, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S1x1, .f32⟩
  | .hbm, ⟨70, _⟩ => ⟨S4096x1, .f32⟩
  | .hbm, ⟨71, _⟩ => ⟨S4096x1, .f32⟩
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_1 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S1_S1x1_1 : S1.BroadcastsInDim S1x1 (![1] : Fin 1 → Fin S1x1.rank)
  shapeCasts_S4096x1_S4096 : S4096x1.ShapeCasts S4096
  bcast_S1x1_S4096x4096_0_1 : S1x1.BroadcastsInDim S4096x4096 (![0, 1] : Fin 2 → Fin S4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S1x1_S4096x1_0_1 : S1x1.BroadcastsInDim S4096x1 (![0, 1] : Fin 2 → Fin S4096x1.rank)
  transposes_S4096x1_S1x4096_1_0 : S4096x1.Transposes [1, 0] S1x4096
  bcast_S_S1x1 : S_.BroadcastsInDim S1x1 (![] : Fin 0 → Fin S1x1.rank)
  dot_S4096x2048_S2048x1_S4096x1_1_0_0_1_n_n_wf : DotDims.WF S4096x2048 S2048x1 S4096x1 [1] [0] [0] [1] [] []
  dot_S1x2048_S2048x1_S1x1_1_0_0_1_n_n_wf : DotDims.WF S1x2048 S2048x1 S1x1 [1] [0] [0] [1] [] []
  dot_S1x4096_S4096x1_S1x1_1_0_0_1_n_n_wf : DotDims.WF S1x4096 S4096x1 S1x1 [1] [0] [0] [1] [] []
  dot_S4096x4096_S4096x1_S4096x1_1_0_0_1_n_n_wf : DotDims.WF S4096x4096 S4096x1 S4096x1 [1] [0] [0] [1] [] []

variable [Facts₀]

def dot_S4096x2048_S2048x1_S4096x1_1_0_0_1_n_n : DotDims S4096x2048 S2048x1 S4096x1 where
  lhsContracting := [1]
  rhsContracting := [0]
  lhsNonContracting := [0]
  rhsNonContracting := [1]
  lhsBatch := []
  rhsBatch := []
  wf := dot_S4096x2048_S2048x1_S4096x1_1_0_0_1_n_n_wf
def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.CellSpec.lean ====
/-
  One step of a matrix-memory recurrent cell, written as plain mathematics over the extended reals.

  From an input column x (2048 entries) three projections are taken, each a matrix-vector product plus a bias:
  the query q = Wq·x + bq, the key k = (1/64)·(Wk·x + bk) and the value v = Wv·x + bV (4096 entries each; 1/64 is
  1/sqrt 4096, kept as the binary word both programs carry). Three scalar gates i, f, o come from row vectors
  (i = exp (Wi·x + bi), f = exp (Wf·x + bf), o = 1 / (1 + exp (-(Wo·x + bo)))); the whole step below takes them as
  one-entry arrays, whatever they are.
  The matrix memory is updated entry by entry, C[r,c] = f·Cprev[r,c] + i·(v[r]·k[c]); the normalizer column is
  n[r] = f·nprev[r] + i·k[r]; and the hidden column is h[r] = o · ((Σ_c C[r,c]·q[c]) / max(|Σ_r n[r]·q[r]|, 1)).
  Every sum is a finite sum in the extended reals (a commutative monoid under +), every product the extended
  product, the quotient the extended quotient; nothing here needs the entries to be finite.
-/
import Idealize.ShloMosaic.PureOps.Ideal
import Idealize.ShloMosaic.Lib.ValueIdx

noncomputable section

namespace Cert.Cell

open Idealize.ShloMosaic Idealize.ShloMosaic.ValueIdx

/-- A matrix of `r` rows and `c` columns of extended reals. -/
abbrev Mat (r c : Nat) : Type := (⟨2, ![r, c]⟩ : Shape).Idx → EReal
/-- A one-entry bias vector. -/
abbrev One : Type := (⟨1, ![1]⟩ : Shape).Idx → EReal

/-- Row `r` of `W` against the column `x`. -/
def rowDot {R K : Nat} (W : Mat R K) (x : Mat K 1) (r : Fin R) : EReal := ∑ k : Fin K, W (ix2 r k) * x (ix2 k 0)

/-- The word of 1/64. -/
def scaleW : EReal := Ideal.ofBits .f32 0x3C800000#32
/-- The word of 1. -/
def oneW : EReal := Ideal.ofBits .f32 0x3F800000#32

/-- A projection: a row of the weight against the input, plus the bias entry. -/
def proj {R K : Nat} (W : Mat R K) (x : Mat K 1) (b : Mat R 1) (r : Fin R) : EReal := rowDot W x r + b (ix2 r 0)
/-- The key: the projection scaled by 1/64. -/
def key {R K : Nat} (W : Mat R K) (x : Mat K 1) (b : Mat R 1) (r : Fin R) : EReal := scaleW * proj W x b r
/-- An exponential gate. -/
def expGate {K : Nat} (W : Mat 1 K) (x : Mat K 1) (b : One) : EReal := Ideal.exp (rowDot W x 0 + b (ix1 0))
/-- The logistic gate, as 1 / (1 + exp (-z)). -/
def sigGate {K : Nat} (W : Mat 1 K) (x : Mat K 1) (b : One) : EReal :=
  Ideal.div oneW (oneW + Ideal.exp (-(rowDot W x 0 + b (ix1 0))))

/-- The projection as a column. -/
def projCol {R K : Nat} (W : Mat R K) (x : Mat K 1) (b : Mat R 1) : Mat R 1 := fun i => proj W x b (i 0)
/-- The key as a column. -/
def keyCol {R K : Nat} (W : Mat R K) (x : Mat K 1) (b : Mat R 1) : Mat R 1 := fun i => key W x b (i 0)

/-- A projection depends only on the row of the weight, the column and the bias entry it reads: row `p` of one
    weight and row `r` of another give the same value when those entries agree. -/
theorem proj_congr {R R' K : Nat} (W : Mat R K) (W' : Mat R' K) (x x' : Mat K 1) (b : Mat R 1) (b' : Mat R' 1) (p : Fin R) (r : Fin R')
    (hW : ∀ k, W (ix2 p k) = W' (ix2 r k)) (hx : ∀ k, x (ix2 k 0) = x' (ix2 k 0)) (hb : b (ix2 p 0) = b' (ix2 r 0)) :
    proj W x b p = proj W' x' b' r := by
  unfold proj rowDot
  rw [hb]
  exact congrArg (· + b' (ix2 r 0)) (Finset.sum_congr rfl fun k _ => by rw [hW k, hx k])

theorem key_congr {R R' K : Nat} (W : Mat R K) (W' : Mat R' K) (x x' : Mat K 1) (b : Mat R 1) (b' : Mat R' 1) (p : Fin R) (r : Fin R')
    (hW : ∀ k, W (ix2 p k) = W' (ix2 r k)) (hx : ∀ k, x (ix2 k 0) = x' (ix2 k 0)) (hb : b (ix2 p 0) = b' (ix2 r 0)) :
    key W x b p = key W' x' b' r := by
  unfold key
  rw [proj_congr W W' x x' b b' p r hW hx hb]

/-- One entry of the updated matrix memory. -/
def memEntry (f i cpe ve ke : EReal) : EReal := f * cpe + i * (ve * ke)
/-- One entry of the updated normalizer. -/
def normEntry (f i npe ke : EReal) : EReal := f * npe + i * ke
/-- The denominator: the larger of |s| and 1. -/
def denomOf (s : EReal) : EReal := max (max s (-s)) oneW
/-- One entry of the hidden column. -/
def hidEntry (o s d : EReal) : EReal := o * Ideal.div s d

theorem memEntry_congr {f i a v k f' i' a' v' k' : EReal} (h1 : f = f') (h2 : i = i') (h3 : a = a') (h4 : v = v') (h5 : k = k') :
    memEntry f i a v k = memEntry f' i' a' v' k' := by rw [h1, h2, h3, h4, h5]
theorem normEntry_congr {f i a k f' i' a' k' : EReal} (h1 : f = f') (h2 : i = i') (h3 : a = a') (h4 : k = k') :
    normEntry f i a k = normEntry f' i' a' k' := by rw [h1, h2, h3, h4]
theorem hidEntry_congr {o s d o' s' d' : EReal} (h1 : o = o') (h2 : s = s') (h3 : d = d') :
    hidEntry o s d = hidEntry o' s' d' := by rw [h1, h2, h3]

/-! The update as arrays, over the arrays the second region reads: the gates and the denominator as one-entry
    matrices, the value and key as columns, the key and the query also laid out as rows. -/

/-- The new memory from the arrays the update reads. -/
def memArr (f i : Mat 1 1) (cp : Mat 4096 4096) (v : Mat 4096 1) (krow : Mat 1 4096) : Mat 4096 4096 := fun j =>
  memEntry (f (ix2 0 0)) (i (ix2 0 0)) (cp (ix2 (j 0) (j 1))) (v (ix2 (j 0) 0)) (krow (ix2 0 (j 1)))
theorem memArr_apply (f i : Mat 1 1) (cp : Mat 4096 4096) (v : Mat 4096 1) (krow : Mat 1 4096) (r c : Fin 4096) :
    memArr f i cp v krow (ix2 r c) = memEntry (f (ix2 0 0)) (i (ix2 0 0)) (cp (ix2 r c)) (v (ix2 r 0)) (krow (ix2 0 c)) := rfl
/-- The new normalizer from the arrays the update reads. -/
def normArr (f i : Mat 1 1) (np k : Mat 4096 1) : Mat 4096 1 := fun j =>
  normEntry (f (ix2 0 0)) (i (ix2 0 0)) (np (ix2 (j 0) 0)) (k (ix2 (j 0) 0))
/-- The new hidden column from the arrays the update reads. -/
def hidArr (o d f i : Mat 1 1) (cp : Mat 4096 4096) (v : Mat 4096 1) (krow qrow : Mat 1 4096) : Mat 4096 1 := fun j =>
  hidEntry (o (ix2 0 0)) (∑ c : Fin 4096, memArr f i cp v krow (ix2 (j 0) c) * qrow (ix2 0 c)) (d (ix2 0 0))

/-! The whole step, over the three gates as one-entry arrays and the argument arrays. -/

/-- The new matrix memory. -/
def newC (fA iA : Mat 1 1) (x : Mat 2048 1) (cp : Mat 4096 4096) (Wk : Mat 4096 2048) (bk : Mat 4096 1) (Wv : Mat 4096 2048) (bV : Mat 4096 1) :
    Mat 4096 4096 := fun j =>
  memEntry (fA (ix2 0 0)) (iA (ix2 0 0)) (cp (ix2 (j 0) (j 1))) (proj Wv x bV (j 0)) (key Wk x bk (j 1))
/-- The new normalizer. -/
def newN (fA iA : Mat 1 1) (x : Mat 2048 1) (np : Mat 4096 1) (Wk : Mat 4096 2048) (bk : Mat 4096 1) : Mat 4096 1 := fun j =>
  normEntry (fA (ix2 0 0)) (iA (ix2 0 0)) (np (ix2 (j 0) 0)) (key Wk x bk (j 0))
/-- The denominator: the larger of 1 and the size of the normalizer against the query. -/
def newDen (fA iA : Mat 1 1) (x : Mat 2048 1) (np : Mat 4096 1) (Wq : Mat 4096 2048) (bq : Mat 4096 1) (Wk : Mat 4096 2048) (bk : Mat 4096 1) : EReal :=
  denomOf (∑ r : Fin 4096, newN fA iA x np Wk bk (ix2 r 0) * proj Wq x bq r)
/-- The new hidden column. -/
def newH (fA iA oA : Mat 1 1) (x : Mat 2048 1) (cp : Mat 4096 4096) (np : Mat 4096 1) (Wq : Mat 4096 2048) (bq : Mat 4096 1)
    (Wk : Mat 4096 2048) (bk : Mat 4096 1) (Wv : Mat 4096 2048) (bV : Mat 4096 1) : Mat 4096 1 := fun j =>
  hidEntry (oA (ix2 0 0)) (∑ c : Fin 4096, newC fA iA x cp Wk bk Wv bV (ix2 (j 0) c) * proj Wq x bq c)
    (newDen fA iA x np Wq bq Wk bk)

end Cert.Cell

end
-- ==== Proof.ProjValue.lean ====
/-
  The projection region's values. Each grid point t of the first region holds rows 512·t … 512·t + 511 of the three
  weight matrices and of the three bias columns, and the whole input column; it writes rows 512·t … 512·t + 511 of
  the query, key and value columns. Read at the exact values, a block's matrix product into a zero accumulator is the
  plain sum over the 2048 input entries (a change of float format is the identity there), so every written entry is
  the projection of the mathematical specification; the eight row blocks tile the 4096 rows, so after the region the
  three result columns ARE the projections, as functions of the arrays the region was entered with.
-/
import proofs.«431350_j79843442032663_3_alg».proof.Proof.Gen.KernelIdeal.Frame
import proofs.«431350_j79843442032663_3_alg».proof.Proof.CellSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ProjValue

open Cert.KernelIdeal Cert.KernelIdeal.Gen Cert.Cell

/-! ## The block product read at an entry -/

theorem lhs_proj_0 (i : S512x1.Idx) (q : dot_S512x2048_S2048x1_S512x1_1_0_0_1_n_n.contr.Idx) :
    (dot_S512x2048_S2048x1_S512x1_1_0_0_1_n_n.lhsIdx i q 0).val = (i 0).val := by
  unfold DotDims.lhsIdx
  rw [dif_neg (show ¬(0 : Fin S512x2048.rank) ∈ dot_S512x2048_S2048x1_S512x1_1_0_0_1_n_n.lhsBatch by decide), dif_pos (show (0 : Fin S512x2048.rank) ∈ dot_S512x2048_S2048x1_S512x1_1_0_0_1_n_n.lhsNonContracting by decide)]
  rfl
theorem lhs_proj_1 (i : S512x1.Idx) (q : dot_S512x2048_S2048x1_S512x1_1_0_0_1_n_n.contr.Idx) :
    (dot_S512x2048_S2048x1_S512x1_1_0_0_1_n_n.lhsIdx i q 1).val = (q ⟨0, by decide⟩).val :=
  dot_S512x2048_S2048x1_S512x1_1_0_0_1_n_n.lhsIdx_val_of_single rfl i q
theorem rhs_proj_0 (i : S512x1.Idx) (q : dot_S512x2048_S2048x1_S512x1_1_0_0_1_n_n.contr.Idx) :
    (dot_S512x2048_S2048x1_S512x1_1_0_0_1_n_n.rhsIdx i q 0).val = (q ⟨0, by decide⟩).val :=
  dot_S512x2048_S2048x1_S512x1_1_0_0_1_n_n.rhsIdx_val_of_single rfl i q
theorem rhs_proj_1 (i : S512x1.Idx) (q : dot_S512x2048_S2048x1_S512x1_1_0_0_1_n_n.contr.Idx) :
    (dot_S512x2048_S2048x1_S512x1_1_0_0_1_n_n.rhsIdx i q 1).val = (i 1).val := by
  unfold DotDims.rhsIdx
  rw [dif_neg (show ¬(1 : Fin S2048x1.rank) ∈ dot_S512x2048_S2048x1_S512x1_1_0_0_1_n_n.rhsBatch by decide), dif_pos (show (1 : Fin S2048x1.rank) ∈ dot_S512x2048_S2048x1_S512x1_1_0_0_1_n_n.rhsNonContracting by decide)]
  rfl

/-- A 512 × 2048 block against the 2048 × 1 column, into the zero accumulator, at row `p`: the row's dot product. -/
theorem blockProduct_apply (W : FVec Ideal S512x2048 .bf16) (x : FVec Ideal S2048x1 .bf16) (p : Fin 512) (q : Fin 1) :
    matmul dot_S512x2048_S2048x1_S512x1_1_0_0_1_n_n none W x (constant S512x1 .f32 0x00000000#32) (ix2 p q)
      = rowDot (R := 512) (K := 2048) W x p := by
  simp only [matmul]
  rw [Ideal.matmul_constant_zero_apply, ← Equiv.sum_comp (ValueIdx.contrEquiv1 dot_S512x2048_S2048x1_S512x1_1_0_0_1_n_n 2048 rfl rfl).symm]
  unfold rowDot
  refine Finset.sum_congr rfl fun k _ => ?_
  have hk := ValueIdx.contrEquiv1_symm_val dot_S512x2048_S2048x1_S512x1_1_0_0_1_n_n 2048 rfl rfl k
  have el : dot_S512x2048_S2048x1_S512x1_1_0_0_1_n_n.lhsIdx (ix2 p q) ((ValueIdx.contrEquiv1 dot_S512x2048_S2048x1_S512x1_1_0_0_1_n_n 2048 rfl rfl).symm k) = ix2 p k := funext fun a => Fin.ext (by
    match a with
    | ⟨0, _⟩ => exact lhs_proj_0 _ _
    | ⟨1, _⟩ => exact (lhs_proj_1 _ _).trans hk)
  have er : dot_S512x2048_S2048x1_S512x1_1_0_0_1_n_n.rhsIdx (ix2 p q) ((ValueIdx.contrEquiv1 dot_S512x2048_S2048x1_S512x1_1_0_0_1_n_n 2048 rfl rfl).symm k) = ix2 k (0 : Fin 1) := funext fun a => Fin.ext (by
    match a with
    | ⟨0, _⟩ => exact (rhs_proj_0 _ _).trans hk
    | ⟨1, _⟩ => exact (rhs_proj_1 _ _).trans (by rw [Subsingleton.elim q 0]))
  rw [el, er]

/-- The query and value payloads at row `p`: the block's row against the column, plus the bias entry. -/
theorem pay2_apply (x0 : Vec Ideal S2048x1 .f32) (x1 : Vec Ideal S512x2048 .f32) (x2 : Vec Ideal S512x1 .f32) (p : Fin 512) (q : Fin 1) :
    k0_pay2 x0 x1 x2 (ix2 p q) = proj (R := 512) (K := 2048) x1 x0 x2 p := by
  unfold k0_pay2 k0_pay1
  rw [addf_apply, blockProduct_apply]
  unfold proj rowDot
  rw [Subsingleton.elim q 0]
  rfl

theorem pay4_apply (x0 : Vec Ideal S2048x1 .f32) (x1 : Vec Ideal S512x2048 .f32) (x2 : Vec Ideal S512x1 .f32) (p : Fin 512) (q : Fin 1) :
    k0_pay4 x0 x1 x2 (ix2 p q) = proj (R := 512) (K := 2048) x1 x0 x2 p := by
  unfold k0_pay4 k0_pay1
  rw [addf_apply, blockProduct_apply]
  unfold proj rowDot
  rw [Subsingleton.elim q 0]
  rfl

/-- The key payload at row `p`: the same, times the word of 1/64 (the product commutes). -/
theorem pay3_apply (x0 : Vec Ideal S2048x1 .f32) (x1 : Vec Ideal S512x2048 .f32) (x2 : Vec Ideal S512x1 .f32) (p : Fin 512) (q : Fin 1) :
    k0_pay3 x0 x1 x2 (ix2 p q) = key (R := 512) (K := 2048) x1 x0 x2 p := by
  unfold k0_pay3 k0_pay1
  rw [mulf_apply, addf_apply, blockProduct_apply, broadcast_apply]
  unfold key proj rowDot scaleW
  rw [Subsingleton.elim q 0, mul_comm]
  rfl

/-! ## The blocks a point reads, as entries of the arrays the region was entered with -/

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the eight points: the input column's block is always block (0, 0); every
    other window's block at point `t` is block (t, 0). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The input column's block is the whole column. -/
theorem xblk (c : Dev nD) (t : Fin cfg0.N) (k : Fin 2048) (q : Fin 1) :
    (iblk0 V c 0 t : Vec Ideal S2048x1 .f32) (ix2 k q) = (V c main_arg0 : Mat 2048 1) (ix2 k q) := by
  obtain ⟨h0, h1, -⟩ := idx_facts t
  unfold iblk0
  rw [View.read_apply]
  show V c main_arg0 _ = V c main_arg0 _
  congr 1
  funext a
  apply Fin.ext
  match a with
  | ⟨0, _⟩ => show win0_0.index t 0 * 2048 + 1 * k.val = k.val; rw [h0]; omega
  | ⟨1, _⟩ => show win0_0.index t 1 * 1 + 1 * q.val = q.val; rw [h1]; omega

/-- A weight block's row `p` at point `t` is row 512·t + p of the weight. -/
theorem wblk1 (c : Dev nD) (t : Fin cfg0.N) (p : Fin 512) (k : Fin 2048) (r : Fin 4096) (hr : r.val = 512 * t.val + p.val) :
    (iblk0 V c 1 t : Vec Ideal S512x2048 .f32) (ix2 p k) = (V c main_arg3 : Mat 4096 2048) (ix2 r k) := by
  obtain ⟨-, -, h0, h1, -⟩ := idx_facts t
  unfold iblk0
  rw [View.read_apply]
  show V c main_arg3 _ = V c main_arg3 _
  congr 1
  funext a
  apply Fin.ext
  match a with
  | ⟨0, _⟩ => show win0_1.index t 0 * 512 + 1 * p.val = r.val; rw [h0, hr]; omega
  | ⟨1, _⟩ => show win0_1.index t 1 * 2048 + 1 * k.val = k.val; rw [h1]; omega
theorem wblk3 (c : Dev nD) (t : Fin cfg0.N) (p : Fin 512) (k : Fin 2048) (r : Fin 4096) (hr : r.val = 512 * t.val + p.val) :
    (iblk0 V c 3 t : Vec Ideal S512x2048 .f32) (ix2 p k) = (V c main_arg5 : Mat 4096 2048) (ix2 r k) := by
  obtain ⟨-, -, -, -, -, -, h0, h1, -⟩ := idx_facts t
  unfold iblk0
  rw [View.read_apply]
  show V c main_arg5 _ = V c main_arg5 _
  congr 1
  funext a
  apply Fin.ext
  match a with
  | ⟨0, _⟩ => show win0_3.index t 0 * 512 + 1 * p.val = r.val; rw [h0, hr]; omega
  | ⟨1, _⟩ => show win0_3.index t 1 * 2048 + 1 * k.val = k.val; rw [h1]; omega
theorem wblk5 (c : Dev nD) (t : Fin cfg0.N) (p : Fin 512) (k : Fin 2048) (r : Fin 4096) (hr : r.val = 512 * t.val + p.val) :
    (iblk0 V c 5 t : Vec Ideal S512x2048 .f32) (ix2 p k) = (V c main_arg7 : Mat 4096 2048) (ix2 r k) := by
  obtain ⟨-, -, -, -, -, -, -, -, -, -, h0, h1, -⟩ := idx_facts t
  unfold iblk0
  rw [View.read_apply]
  show V c main_arg7 _ = V c main_arg7 _
  congr 1
  funext a
  apply Fin.ext
  match a with
  | ⟨0, _⟩ => show win0_5.index t 0 * 512 + 1 * p.val = r.val; rw [h0, hr]; omega
  | ⟨1, _⟩ => show win0_5.index t 1 * 2048 + 1 * k.val = k.val; rw [h1]; omega

/-- A bias block's entry `p` at point `t` is entry 512·t + p of the bias column. -/
theorem bblk2 (c : Dev nD) (t : Fin cfg0.N) (p : Fin 512) (q : Fin 1) (r : Fin 4096) (hr : r.val = 512 * t.val + p.val) :
    (iblk0 V c 2 t : Vec Ideal S512x1 .f32) (ix2 p q) = (V c main_arg4 : Mat 4096 1) (ix2 r q) := by
  obtain ⟨-, -, -, -, h0, h1, -⟩ := idx_facts t
  unfold iblk0
  rw [View.read_apply]
  show V c main_arg4 _ = V c main_arg4 _
  congr 1
  funext a
  apply Fin.ext
  match a with
  | ⟨0, _⟩ => show win0_2.index t 0 * 512 + 1 * p.val = r.val; rw [h0, hr]; omega
  | ⟨1, _⟩ => show win0_2.index t 1 * 1 + 1 * q.val = q.val; rw [h1]; omega
theorem bblk4 (c : Dev nD) (t : Fin cfg0.N) (p : Fin 512) (q : Fin 1) (r : Fin 4096) (hr : r.val = 512 * t.val + p.val) :
    (iblk0 V c 4 t : Vec Ideal S512x1 .f32) (ix2 p q) = (V c main_arg6 : Mat 4096 1) (ix2 r q) := by
  obtain ⟨-, -, -, -, -, -, -, -, h0, h1, -⟩ := idx_facts t
  unfold iblk0
  rw [View.read_apply]
  show V c main_arg6 _ = V c main_arg6 _
  congr 1
  funext a
  apply Fin.ext
  match a with
  | ⟨0, _⟩ => show win0_4.index t 0 * 512 + 1 * p.val = r.val; rw [h0, hr]; omega
  | ⟨1, _⟩ => show win0_4.index t 1 * 1 + 1 * q.val = q.val; rw [h1]; omega
theorem bblk6 (c : Dev nD) (t : Fin cfg0.N) (p : Fin 512) (q : Fin 1) (r : Fin 4096) (hr : r.val = 512 * t.val + p.val) :
    (iblk0 V c 6 t : Vec Ideal S512x1 .f32) (ix2 p q) = (V c main_arg8 : Mat 4096 1) (ix2 r q) := by
  obtain ⟨-, -, -, -, -, -, -, -, -, -, -, -, h0, h1, -⟩ := idx_facts t
  unfold iblk0
  rw [View.read_apply]
  show V c main_arg8 _ = V c main_arg8 _
  congr 1
  funext a
  apply Fin.ext
  match a with
  | ⟨0, _⟩ => show win0_6.index t 0 * 512 + 1 * p.val = r.val; rw [h0, hr]; omega
  | ⟨1, _⟩ => show win0_6.index t 1 * 1 + 1 * q.val = q.val; rw [h1]; omega

/-! ## What a point writes back, and the columns after the region -/

/-- Point `t` writes back block `t` of the query column. -/
theorem flushed7 (c : Dev nD) (t : Fin cfg0.N) :
    (dat0 V c).flushed 7 t = ((cfg0.win 7).blk t).view.read (Elt Ideal) (projCol (R := 4096) (K := 2048) (V c main_arg3) (V c main_arg0) (V c main_arg4)) := by
  show (cfg0.win 7).cut (grid0.coords t) ((dat0 V c).after 7 t) = _
  rw [after0_7]
  unfold out0_7
  rw [View.canon_unit_zero hz]
  simp only [View.ld_unit_zero (S := S2048x1) hz, View.ld_unit_zero (S := S512x2048) hz, View.ld_unit_zero (S := S512x1) hz]
  obtain ⟨-, -, -, -, -, -, -, -, -, -, -, -, -, -, h0, h1, -⟩ := idx_facts t
  funext j
  obtain ⟨p, q, rfl⟩ : ∃ (p : Fin 512) (q : Fin 1), j = ix2 p q := ⟨j 0, j 1, eq_ix2 j⟩
  show k0_pay2 (iblk0 V c 0 t) (iblk0 V c 1 t) (iblk0 V c 2 t) (ix2 p q)
    = projCol (R := 4096) (K := 2048) (V c main_arg3) (V c main_arg0) (V c main_arg4) (((cfg0.win 7).blk t).view.emb (ix2 p q))
  refine (pay2_apply _ _ _ p q).trans ?_
  have hr : ((((cfg0.win 7).blk t).view.emb (ix2 p q)) 0).val = 512 * t.val + p.val := by
    show win0_7.index t 0 * 512 + 1 * p.val = _; rw [h0]; omega
  unfold projCol
  exact proj_congr _ _ _ _ _ _ p _ (fun k => wblk1 V c t p k _ hr) (fun k => xblk V c t k 0) (bblk2 V c t p 0 _ hr)

/-- Point `t` writes back block `t` of the key column. -/
theorem flushed8 (c : Dev nD) (t : Fin cfg0.N) :
    (dat0 V c).flushed 8 t = ((cfg0.win 8).blk t).view.read (Elt Ideal) (keyCol (R := 4096) (K := 2048) (V c main_arg5) (V c main_arg0) (V c main_arg6)) := by
  show (cfg0.win 8).cut (grid0.coords t) ((dat0 V c).after 8 t) = _
  rw [after0_8]
  unfold out0_8
  rw [View.canon_unit_zero hz]
  simp only [View.ld_unit_zero (S := S2048x1) hz, View.ld_unit_zero (S := S512x2048) hz, View.ld_unit_zero (S := S512x1) hz]
  obtain ⟨-, -, -, -, -, -, -, -, -, -, -, -, -, -, -, -, h0, h1, -⟩ := idx_facts t
  funext j
  obtain ⟨p, q, rfl⟩ : ∃ (p : Fin 512) (q : Fin 1), j = ix2 p q := ⟨j 0, j 1, eq_ix2 j⟩
  show k0_pay3 (iblk0 V c 0 t) (iblk0 V c 3 t) (iblk0 V c 4 t) (ix2 p q)
    = keyCol (R := 4096) (K := 2048) (V c main_arg5) (V c main_arg0) (V c main_arg6) (((cfg0.win 8).blk t).view.emb (ix2 p q))
  refine (pay3_apply _ _ _ p q).trans ?_
  have hr : ((((cfg0.win 8).blk t).view.emb (ix2 p q)) 0).val = 512 * t.val + p.val := by
    show win0_8.index t 0 * 512 + 1 * p.val = _; rw [h0]; omega
  unfold keyCol
  exact key_congr _ _ _ _ _ _ p _ (fun k => wblk3 V c t p k _ hr) (fun k => xblk V c t k 0) (bblk4 V c t p 0 _ hr)

/-- Point `t` writes back block `t` of the value column. -/
theorem flushed9 (c : Dev nD) (t : Fin cfg0.N) :
    (dat0 V c).flushed 9 t = ((cfg0.win 9).blk t).view.read (Elt Ideal) (projCol (R := 4096) (K := 2048) (V c main_arg7) (V c main_arg0) (V c main_arg8)) := by
  show (cfg0.win 9).cut (grid0.coords t) ((dat0 V c).after 9 t) = _
  rw [after0_9]
  unfold out0_9
  rw [View.canon_unit_zero hz]
  simp only [View.ld_unit_zero (S := S2048x1) hz, View.ld_unit_zero (S := S512x2048) hz, View.ld_unit_zero (S := S512x1) hz]
  obtain ⟨-, -, -, -, -, -, -, -, -, -, -, -, -, -, -, -, -, -, h0, h1⟩ := idx_facts t
  funext j
  obtain ⟨p, q, rfl⟩ : ∃ (p : Fin 512) (q : Fin 1), j = ix2 p q := ⟨j 0, j 1, eq_ix2 j⟩
  show k0_pay4 (iblk0 V c 0 t) (iblk0 V c 5 t) (iblk0 V c 6 t) (ix2 p q)
    = projCol (R := 4096) (K := 2048) (V c main_arg7) (V c main_arg0) (V c main_arg8) (((cfg0.win 9).blk t).view.emb (ix2 p q))
  refine (pay4_apply _ _ _ p q).trans ?_
  have hr : ((((cfg0.win 9).blk t).view.emb (ix2 p q)) 0).val = 512 * t.val + p.val := by
    show win0_9.index t 0 * 512 + 1 * p.val = _; rw [h0]; omega
  unfold projCol
  exact proj_congr _ _ _ _ _ _ p _ (fun k => wblk5 V c t p k _ hr) (fun k => xblk V c t k 0) (bblk6 V c t p 0 _ hr)

/-- An entry of a result column is in point `t`'s block iff its row is among rows 512·t … 512·t + 511. -/
theorem mem_blk7 (t : Fin cfg0.N) (i : S4096x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_call0_v17_0).slice (win0_7.rect t)).set ↔ _
  rw [View.set_slice_whole, Rect.mem_set_unit]
  exact Iff.rfl
theorem mem_blk8 (t : Fin cfg0.N) (i : S4096x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_call0_v17_1).slice (win0_8.rect t)).set ↔ _
  rw [View.set_slice_whole, Rect.mem_set_unit]
  exact Iff.rfl
theorem mem_blk9 (t : Fin cfg0.N) (i : S4096x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_call0_v17_2).slice (win0_9.rect t)).set ↔ _
  rw [View.set_slice_whole, Rect.mem_set_unit]
  exact Iff.rfl

/-- The point that holds row `r` is `r / 512`. -/
def pointOf (i : S4096x1.Idx) : Fin cfg0.N := ⟨(i 0).val / 512, by
  have h : (i 0).val < 4096 := (i 0).isLt
  rw [show cfg0.N = 8 from N_0]; omega⟩

theorem cover7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  obtain ⟨-, -, -, -, -, -, -, -, -, -, -, -, -, -, h0, h1, -⟩ := idx_facts (pointOf i)
  have ht : (pointOf i).val = (i 0).val / 512 := rfl
  refine ⟨pointOf i, flush0_7 _, ?_⟩
  rw [mem_blk7]
  intro a
  match a with
  | ⟨0, _⟩ => show win0_7.index (pointOf i) 0 * 512 ≤ (i 0).val ∧ (i 0).val < win0_7.index (pointOf i) 0 * 512 + 512; rw [h0, ht]; omega
  | ⟨1, _⟩ => show win0_7.index (pointOf i) 1 * 1 ≤ (i 1).val ∧ (i 1).val < win0_7.index (pointOf i) 1 * 1 + 1; rw [h1]; omega
theorem cover8 (i : S4096x1.Idx) : ∃ t : Fin cfg0.N, (cfg0.win 8).flush t = true ∧ i ∈ ((cfg0.win 8).blk t).view.set := by
  have hi0 : (i 0).val < 4096 := (i 0).isLt
  have hi1 : (i 1).val < 1 := (i 1).isLt
  obtain ⟨-, -, -, -, -, -, -, -, -, -, -, -, -, -, -, -, h0, h1, -⟩ := idx_facts (pointOf i)
  have ht : (pointOf i).val = (i 0).val / 512 := rfl
  refine ⟨pointOf i, flush0_8 _, ?_⟩
  rw [mem_blk8]
  intro a
  match a with
  | ⟨0, _⟩ => show win0_8.index (pointOf i) 0 * 512 ≤ (i 0).val ∧ (i 0).val < win0_8.index (pointOf i) 0 * 512 + 512; rw [h0, ht]; omega
  | ⟨1, _⟩ => show win0_8.index (pointOf i) 1 * 1 ≤ (i 1).val ∧ (i 1).val < win0_8.index (pointOf i) 1 * 1 + 1; rw [h1]; omega
theorem cover9 (i : S4096x1.Idx) : ∃ t : Fin cfg0.N, (cfg0.win 9).flush t = true ∧ i ∈ ((cfg0.win 9).blk t).view.set := by
  have hi0 : (i 0).val < 4096 := (i 0).isLt
  have hi1 : (i 1).val < 1 := (i 1).isLt
  obtain ⟨-, -, -, -, -, -, -, -, -, -, -, -, -, -, -, -, -, -, h0, h1⟩ := idx_facts (pointOf i)
  have ht : (pointOf i).val = (i 0).val / 512 := rfl
  refine ⟨pointOf i, flush0_9 _, ?_⟩
  rw [mem_blk9]
  intro a
  match a with
  | ⟨0, _⟩ => show win0_9.index (pointOf i) 0 * 512 ≤ (i 0).val ∧ (i 0).val < win0_9.index (pointOf i) 0 * 512 + 512; rw [h0, ht]; omega
  | ⟨1, _⟩ => show win0_9.index (pointOf i) 1 * 1 ≤ (i 1).val ∧ (i 1).val < win0_9.index (pointOf i) 1 * 1 + 1; rw [h1]; omega

/-- After the region the query column is the projection of the query weight. -/
theorem queryAfter (c : Dev nD) :
    (dat0 V c).arrAt 7 cfg0.N = projCol (R := 4096) (K := 2048) (V c main_arg3) (V c main_arg0) (V c main_arg4) :=
  (dat0 V c).arrAt_eq_of_cover 7 _ (fun t _ => flushed7 V c t) cover7
/-- After the region the key column is the scaled projection of the key weight. -/
theorem keyAfter (c : Dev nD) :
    (dat0 V c).arrAt 8 cfg0.N = keyCol (R := 4096) (K := 2048) (V c main_arg5) (V c main_arg0) (V c main_arg6) :=
  (dat0 V c).arrAt_eq_of_cover 8 _ (fun t _ => flushed8 V c t) cover8
/-- After the region the value column is the projection of the value weight. -/
theorem valueAfter (c : Dev nD) :
    (dat0 V c).arrAt 9 cfg0.N = projCol (R := 4096) (K := 2048) (V c main_arg7) (V c main_arg0) (V c main_arg8) :=
  (dat0 V c).arrAt_eq_of_cover 9 _ (fun t _ => flushed9 V c t) cover9

end Region

end Cert.KernelIdeal.ProjValue

end
-- ==== Proof.MemValue.lean ====
/-
  The memory-update region's values. Each grid point t of the second region holds rows 256·t … 256·t + 255 of the
  previous matrix memory, of the value, key and previous-normalizer columns, and the whole key row, query row, the
  three gates and the denominator (one-entry arrays). It writes rows 256·t … 256·t + 255 of the new memory, the new
  normalizer and the hidden column. Entry (p, c) of the stored memory block is f·Cprev + i·(v[p]·k[c]) with the
  broadcasts read at that entry; the hidden entry sums that block's row against the query row (a lane sum into a zero
  accumulator is the plain sum), divides by the denominator and multiplies by the output gate. The sixteen row blocks
  tile the 4096 rows, so after the region the three results are the update's arrays of the specification, as
  functions of the arrays the region was entered with.
-/
import proofs.«431350_j79843442032663_3_alg».proof.Proof.Gen.KernelIdeal.Frame
import proofs.«431350_j79843442032663_3_alg».proof.Proof.CellSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MemValue

open Cert.KernelIdeal Cert.KernelIdeal.Gen Cert.Cell

/-! ## Broadcasts, the lane sum and the column cast read at an entry -/

/-- A one-entry array broadcast over a 256 × 4096 block is that entry everywhere. -/
theorem bcOneMat (v : FVec Ideal S1x1 .f32) (p : Fin 256) (c : Fin 4096) :
    broadcastTo S256x4096 v broadcasts_S1x1_S256x4096 (ix2 p c) = v (ix2 0 0) :=
  broadcastTo_apply v broadcasts_S1x1_S256x4096 (ix2 p c) (ix2 0 0) (fun a => match a with
    | ⟨0, _⟩ => by show (0 : Nat) = if (1 : Nat) = 1 then 0 else _; rw [if_pos rfl]
    | ⟨1, _⟩ => by show (0 : Nat) = if (1 : Nat) = 1 then 0 else _; rw [if_pos rfl])
/-- A one-entry array broadcast over a 256 × 1 block is that entry everywhere. -/
theorem bcOneCol (v : FVec Ideal S1x1 .f32) (p : Fin 256) (q : Fin 1) :
    broadcastTo S256x1 v broadcasts_S1x1_S256x1 (ix2 p q) = v (ix2 0 0) :=
  broadcastTo_apply v broadcasts_S1x1_S256x1 (ix2 p q) (ix2 0 0) (fun a => match a with
    | ⟨0, _⟩ => by show (0 : Nat) = if (1 : Nat) = 1 then 0 else _; rw [if_pos rfl]
    | ⟨1, _⟩ => by show (0 : Nat) = if (1 : Nat) = 1 then 0 else _; rw [if_pos rfl])
/-- A column broadcast along the lanes: entry (p, c) is the column's entry p. -/
theorem bcColMat (v : FVec Ideal S256x1 .f32) (p : Fin 256) (c : Fin 4096) :
    broadcastTo S256x4096 v broadcasts_S256x1_S256x4096 (ix2 p c) = v (ix2 p 0) :=
  broadcastTo_apply v broadcasts_S256x1_S256x4096 (ix2 p c) (ix2 p 0) (fun a => match a with
    | ⟨0, _⟩ => by show p.val = if (256 : Nat) = 1 then 0 else p.val; rw [if_neg (by decide)]
    | ⟨1, _⟩ => by show (0 : Nat) = if (1 : Nat) = 1 then 0 else _; rw [if_pos rfl])
/-- A row broadcast down the rows: entry (p, c) is the row's entry c. -/
theorem bcRowMat (v : FVec Ideal S1x4096 .f32) (p : Fin 256) (c : Fin 4096) :
    broadcastTo S256x4096 v broadcasts_S1x4096_S256x4096 (ix2 p c) = v (ix2 0 c) :=
  broadcastTo_apply v broadcasts_S1x4096_S256x4096 (ix2 p c) (ix2 0 c) (fun a => match a with
    | ⟨0, _⟩ => by show (0 : Nat) = if (1 : Nat) = 1 then 0 else _; rw [if_pos rfl]
    | ⟨1, _⟩ => by show c.val = if (4096 : Nat) = 1 then 0 else c.val; rw [if_neg (by decide)])

/-- The lane sum of a 256 × 4096 block into the zero accumulator, at row p: the sum of the row. -/
theorem laneSum_apply (v : FVec Ideal S256x4096 .f32) (p : Fin 256) :
    multiReduction .add [1] S256 v 0x00000000#32 reduces_S256x4096_S256 (.inl rfl) rfl (ix1 p) = ∑ c : Fin 4096, v (ix2 p c) := by
  refine (Ideal.multiReduction_add_single v 0x00000000#32 reduces_S256x4096_S256 (.inl rfl) rfl (ix1 p)).trans ?_
  show (∑ c : Fin 4096, v (reduces_S256x4096_S256.lift (ix1 p) c)) = _
  refine Finset.sum_congr rfl fun c _ => congrArg v (funext fun a => Fin.ext ?_)
  match a with
  | ⟨0, _⟩ => rfl
  | ⟨1, _⟩ => rfl

/-- The 256-vector laid out as a 256 × 1 column: entry (p, q) is entry p. -/
theorem colCast_apply (v : FVec Ideal S256 .f32) (p : Fin 256) (q : Fin 1) :
    shapeCast S256x1 v shapeCasts_S256_S256x1 (ix2 p q) = v (ix1 p) :=
  shapeCast_apply v shapeCasts_S256_S256x1 (ix2 p q) (ix1 p)
    (by rewrite [Shape.rowMajor_val_two, Shape.rowMajor_val_one]; have hq : q.val < 1 := q.isLt; show p.val = p.val * 1 + q.val; omega)

/-! ## The three payloads read at an entry -/

/-- The stored memory block at (p, c). -/
theorem pay5_apply (v0 v2 : Vec Ideal S1x1 .f32) (v8 : Vec Ideal S256x4096 .f32) (v9 : Vec Ideal S256x1 .f32) (v13 : Vec Ideal S1x4096 .f32)
    (p : Fin 256) (c : Fin 4096) :
    k1_pay5 v0 v2 v8 v9 v13 (ix2 p c) = memEntry (v0 (ix2 0 0)) (v2 (ix2 0 0)) (v8 (ix2 p c)) (v9 (ix2 p 0)) (v13 (ix2 0 c)) := by
  unfold k1_pay5 k1_pay2 k1_pay3
  simp only [shapeCast_self]
  rw [addf_apply, mulf_apply, mulf_apply, mulf_apply, bcOneMat, bcOneMat, bcColMat, bcRowMat]
  rfl

/-- The stored normalizer block at (p, q). -/
theorem pay1_apply (v1 v3 : Vec Ideal S1x1 .f32) (v12 v17 : Vec Ideal S256x1 .f32) (p : Fin 256) (q : Fin 1) :
    k1_pay1 (k1_pay2 v1) (k1_pay3 v3) (k1_pay4 v12) v17 (ix2 p q) = normEntry (v1 (ix2 0 0)) (v3 (ix2 0 0)) (v17 (ix2 p q)) (v12 (ix2 p q)) := by
  unfold k1_pay1 k1_pay2 k1_pay3 k1_pay4
  simp only [shapeCast_self]
  rw [addf_apply, mulf_apply, mulf_apply, bcOneCol, bcOneCol]
  rfl

/-- The stored hidden block at (p, q): the memory block's row against the query row, over the denominator, times the
    output gate. -/
theorem pay6_apply (v0 v2 v4 v6 : Vec Ideal S1x1 .f32) (v8 : Vec Ideal S256x4096 .f32) (v9 : Vec Ideal S256x1 .f32) (v13 v15 : Vec Ideal S1x4096 .f32)
    (p : Fin 256) (q : Fin 1) :
    k1_pay6 v0 v2 v4 v6 v8 v9 v13 v15 (ix2 p q)
      = hidEntry (v4 (ix2 0 0)) (∑ c : Fin 4096, k1_pay5 v0 v2 v8 v9 v13 (ix2 p c) * v15 (ix2 0 c)) (v6 (ix2 0 0)) := by
  unfold k1_pay6
  simp only [shapeCast_self]
  rw [mulf_apply, divf_apply, bcOneCol, bcOneCol, colCast_apply, laneSum_apply]
  unfold hidEntry
  refine congrArg (fun s => v4 (ix2 0 0) * Ideal.div s (v6 (ix2 0 0))) (Finset.sum_congr rfl fun c _ => ?_)
  rw [mulf_apply, bcRowMat]

/-! ## The blocks a point reads, as entries of the arrays the region was entered with -/

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the sixteen points: the row-blocked windows (previous memory, value, key,
    previous normalizer and the three results) are at block (t, 0); the key row, the query row, the gates and the
    denominator are always block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- The previous-memory block's row p at point t is row 256·t + p of the previous memory. -/
theorem cpblk (c : Dev nD) (t : Fin cfg1.N) (p : Fin 256) (k : Fin 4096) (r : Fin 4096) (hr : r.val = 256 * t.val + p.val) :
    (iblk1 V c 0 t : Vec Ideal S256x4096 .f32) (ix2 p k) = (V c main_arg1 : Mat 4096 4096) (ix2 r k) := by
  obtain ⟨h0, h1, -⟩ := idx_facts t
  unfold iblk1
  rw [View.read_apply]
  show V c main_arg1 _ = V c main_arg1 _
  congr 1
  funext a
  apply Fin.ext
  match a with
  | ⟨0, _⟩ => show win1_0.index t 0 * 256 + 1 * p.val = r.val; rw [h0, hr]; omega
  | ⟨1, _⟩ => show win1_0.index t 1 * 4096 + 1 * k.val = k.val; rw [h1]; omega
/-- The value block's entry p at point t is entry 256·t + p of the value column. -/
theorem vblk (c : Dev nD) (t : Fin cfg1.N) (p : Fin 256) (q : Fin 1) (r : Fin 4096) (hr : r.val = 256 * t.val + p.val) :
    (iblk1 V c 1 t : Vec Ideal S256x1 .f32) (ix2 p q) = (V c main_call0_v17_2 : Mat 4096 1) (ix2 r q) := by
  obtain ⟨-, -, h0, h1, -⟩ := idx_facts t
  unfold iblk1
  rw [View.read_apply]
  show V c main_call0_v17_2 _ = V c main_call0_v17_2 _
  congr 1
  funext a
  apply Fin.ext
  match a with
  | ⟨0, _⟩ => show win1_1.index t 0 * 256 + 1 * p.val = r.val; rw [h0, hr]; omega
  | ⟨1, _⟩ => show win1_1.index t 1 * 1 + 1 * q.val = q.val; rw [h1]; omega
/-- The key block's entry p at point t is entry 256·t + p of the key column. -/
theorem kblk (c : Dev nD) (t : Fin cfg1.N) (p : Fin 256) (q : Fin 1) (r : Fin 4096) (hr : r.val = 256 * t.val + p.val) :
    (iblk1 V c 2 t : Vec Ideal S256x1 .f32) (ix2 p q) = (V c main_call0_v17_1 : Mat 4096 1) (ix2 r q) := by
  obtain ⟨-, -, -, -, h0, h1, -⟩ := idx_facts t
  unfold iblk1
  rw [View.read_apply]
  show V c main_call0_v17_1 _ = V c main_call0_v17_1 _
  congr 1
  funext a
  apply Fin.ext
  match a with
  | ⟨0, _⟩ => show win1_2.index t 0 * 256 + 1 * p.val = r.val; rw [h0, hr]; omega
  | ⟨1, _⟩ => show win1_2.index t 1 * 1 + 1 * q.val = q.val; rw [h1]; omega
/-- The key row's block is the whole key row. -/
theorem krowblk (c : Dev nD) (t : Fin cfg1.N) (a0 : Fin 1) (k : Fin 4096) :
    (iblk1 V c 3 t : Vec Ideal S1x4096 .f32) (ix2 a0 k) = (V c main_call0_v18 : Mat 1 4096) (ix2 a0 k) := by
  obtain ⟨-, -, -, -, -, -, h0, h1, -⟩ := idx_facts t
  unfold iblk1
  rw [View.read_apply]
  show V c main_call0_v18 _ = V c main_call0_v18 _
  congr 1
  funext a
  apply Fin.ext
  match a with
  | ⟨0, _⟩ => show win1_3.index t 0 * 1 + 1 * a0.val = a0.val; rw [h0]; omega
  | ⟨1, _⟩ => show win1_3.index t 1 * 4096 + 1 * k.val = k.val; rw [h1]; omega
/-- The query row's block is the whole query row. -/
theorem qrowblk (c : Dev nD) (t : Fin cfg1.N) (a0 : Fin 1) (k : Fin 4096) :
    (iblk1 V c 4 t : Vec Ideal S1x4096 .f32) (ix2 a0 k) = (V c main_call0_v19 : Mat 1 4096) (ix2 a0 k) := by
  obtain ⟨-, -, -, -, -, -, -, -, h0, h1, -⟩ := idx_facts t
  unfold iblk1
  rw [View.read_apply]
  show V c main_call0_v19 _ = V c main_call0_v19 _
  congr 1
  funext a
  apply Fin.ext
  match a with
  | ⟨0, _⟩ => show win1_4.index t 0 * 1 + 1 * a0.val = a0.val; rw [h0]; omega
  | ⟨1, _⟩ => show win1_4.index t 1 * 4096 + 1 * k.val = k.val; rw [h1]; omega
/-- The previous-normalizer block's entry p at point t is entry 256·t + p of the previous normalizer. -/
theorem npblk (c : Dev nD) (t : Fin cfg1.N) (p : Fin 256) (q : Fin 1) (r : Fin 4096) (hr : r.val = 256 * t.val + p.val) :
    (iblk1 V c 5 t : Vec Ideal S256x1 .f32) (ix2 p q) = (V c main_arg2 : Mat 4096 1) (ix2 r q) := by
  obtain ⟨-, -, -, -, -, -, -, -, -, -, h0, h1, -⟩ := idx_facts t
  unfold iblk1
  rw [View.read_apply]
  show V c main_arg2 _ = V c main_arg2 _
  congr 1
  funext a
  apply Fin.ext
  match a with
  | ⟨0, _⟩ => show win1_5.index t 0 * 256 + 1 * p.val = r.val; rw [h0, hr]; omega
  | ⟨1, _⟩ => show win1_5.index t 1 * 1 + 1 * q.val = q.val; rw [h1]; omega
/-- The input gate's block is its one entry. -/
theorem iblkGate (c : Dev nD) (t : Fin cfg1.N) (a0 a1 : Fin 1) :
    (iblk1 V c 6 t : Vec Ideal S1x1 .f32) (ix2 a0 a1) = (V c main_call0_v3 : Mat 1 1) (ix2 a0 a1) := by
  obtain ⟨-, -, -, -, -, -, -, -, -, -, -, -, h0, h1, -⟩ := idx_facts t
  unfold iblk1
  rw [View.read_apply]
  show V c main_call0_v3 _ = V c main_call0_v3 _
  congr 1
  funext a
  apply Fin.ext
  match a with
  | ⟨0, _⟩ => show win1_6.index t 0 * 1 + 1 * a0.val = a0.val; rw [h0]; omega
  | ⟨1, _⟩ => show win1_6.index t 1 * 1 + 1 * a1.val = a1.val; rw [h1]; omega
/-- The forget gate's block is its one entry. -/
theorem fblkGate (c : Dev nD) (t : Fin cfg1.N) (a0 a1 : Fin 1) :
    (iblk1 V c 7 t : Vec Ideal S1x1 .f32) (ix2 a0 a1) = (V c main_call0_v7 : Mat 1 1) (ix2 a0 a1) := by
  obtain ⟨-, -, -, -, -, -, -, -, -, -, -, -, -, -, h0, h1, -⟩ := idx_facts t
  unfold iblk1
  rw [View.read_apply]
  show V c main_call0_v7 _ = V c main_call0_v7 _
  congr 1
  funext a
  apply Fin.ext
  match a with
  | ⟨0, _⟩ => show win1_7.index t 0 * 1 + 1 * a0.val = a0.val; rw [h0]; omega
  | ⟨1, _⟩ => show win1_7.index t 1 * 1 + 1 * a1.val = a1.val; rw [h1]; omega
/-- The output gate's block is its one entry. -/
theorem oblkGate (c : Dev nD) (t : Fin cfg1.N) (a0 a1 : Fin 1) :
    (iblk1 V c 8 t : Vec Ideal S1x1 .f32) (ix2 a0 a1) = (V c main_call0_v16 : Mat 1 1) (ix2 a0 a1) := by
  obtain ⟨-, -, -, -, -, -, -, -, -, -, -, -, -, -, -, -, h0, h1, -⟩ := idx_facts t
  unfold iblk1
  rw [View.read_apply]
  show V c main_call0_v16 _ = V c main_call0_v16 _
  congr 1
  funext a
  apply Fin.ext
  match a with
  | ⟨0, _⟩ => show win1_8.index t 0 * 1 + 1 * a0.val = a0.val; rw [h0]; omega
  | ⟨1, _⟩ => show win1_8.index t 1 * 1 + 1 * a1.val = a1.val; rw [h1]; omega
/-- The denominator's block is its one entry. -/
theorem dblk (c : Dev nD) (t : Fin cfg1.N) (a0 a1 : Fin 1) :
    (iblk1 V c 9 t : Vec Ideal S1x1 .f32) (ix2 a0 a1) = (V c main_call0_v29 : Mat 1 1) (ix2 a0 a1) := by
  obtain ⟨-, -, -, -, -, -, -, -, -, -, -, -, -, -, -, -, -, -, h0, h1, -⟩ := idx_facts t
  unfold iblk1
  rw [View.read_apply]
  show V c main_call0_v29 _ = V c main_call0_v29 _
  congr 1
  funext a
  apply Fin.ext
  match a with
  | ⟨0, _⟩ => show win1_9.index t 0 * 1 + 1 * a0.val = a0.val; rw [h0]; omega
  | ⟨1, _⟩ => show win1_9.index t 1 * 1 + 1 * a1.val = a1.val; rw [h1]; omega

/-! ## What a point writes back, and the arrays after the region -/

/-- The memory payload over a point's blocks at (p, k) is the specification's entry (256·t + p, k). -/
theorem memAt (c : Dev nD) (t : Fin cfg1.N) (p : Fin 256) (k : Fin 4096) (r : Fin 4096) (hr : r.val = 256 * t.val + p.val) :
    k1_pay5 (iblk1 V c 7 t) (iblk1 V c 6 t) (iblk1 V c 0 t) (iblk1 V c 1 t) (iblk1 V c 3 t) (ix2 p k)
      = memArr (V c main_call0_v7) (V c main_call0_v3) (V c main_arg1) (V c main_call0_v17_2) (V c main_call0_v18) (ix2 r k) := by
  refine (pay5_apply _ _ _ _ _ p k).trans ?_
  rw [memArr_apply]
  exact memEntry_congr (fblkGate V c t 0 0) (iblkGate V c t 0 0) (cpblk V c t p k r hr) (vblk V c t p 0 r hr) (krowblk V c t 0 k)

/-- Point t writes back block t of the new memory. -/
theorem flushed10 (c : Dev nD) (t : Fin cfg1.N) :
    (dat1 V c).flushed 10 t = ((cfg1.win 10).blk t).view.read (Elt Ideal)
      (memArr (V c main_call0_v7) (V c main_call0_v3) (V c main_arg1) (V c main_call0_v17_2) (V c main_call0_v18)) := by
  show (cfg1.win 10).cut (grid1.coords t) ((dat1 V c).after 10 t) = _
  rw [after1_10]
  unfold out1_10
  rw [View.canon_unit_zero hz]
  simp only [View.ld_unit_zero (S := S1x1) hz, View.ld_unit_zero (S := S256x4096) hz, View.ld_unit_zero (S := S256x1) hz, View.ld_unit_zero (S := S1x4096) hz]
  obtain ⟨-, -, -, -, -, -, -, -, -, -, -, -, -, -, -, -, -, -, -, -, h0, h1, -⟩ := idx_facts t
  funext j
  obtain ⟨p, k, rfl⟩ : ∃ (p : Fin 256) (k : Fin 4096), j = ix2 p k := ⟨j 0, j 1, eq_ix2 j⟩
  show k1_pay5 (iblk1 V c 7 t) (iblk1 V c 6 t) (iblk1 V c 0 t) (iblk1 V c 1 t) (iblk1 V c 3 t) (ix2 p k)
    = memArr (V c main_call0_v7) (V c main_call0_v3) (V c main_arg1) (V c main_call0_v17_2) (V c main_call0_v18) (((cfg1.win 10).blk t).view.emb (ix2 p k))
  have hr : ((((cfg1.win 10).blk t).view.emb (ix2 p k)) 0).val = 256 * t.val + p.val := by
    show win1_10.index t 0 * 256 + 1 * p.val = _; rw [h0]; omega
  have hk : ((((cfg1.win 10).blk t).view.emb (ix2 p k)) 1).val = k.val := by
    show win1_10.index t 1 * 4096 + 1 * k.val = _; rw [h1]; omega
  have he : ((cfg1.win 10).blk t).view.emb (ix2 p k) = ix2 ((((cfg1.win 10).blk t).view.emb (ix2 p k)) 0) k := by
    funext a; apply Fin.ext
    match a with
    | ⟨0, _⟩ => rfl
    | ⟨1, _⟩ => exact hk
  rw [he]
  exact memAt V c t p k _ hr

/-- Point t writes back block t of the new normalizer. -/
theorem flushed11 (c : Dev nD) (t : Fin cfg1.N) :
    (dat1 V c).flushed 11 t = ((cfg1.win 11).blk t).view.read (Elt Ideal)
      (normArr (V c main_call0_v7) (V c main_call0_v3) (V c main_arg2) (V c main_call0_v17_1)) := by
  show (cfg1.win 11).cut (grid1.coords t) ((dat1 V c).after 11 t) = _
  rw [after1_11]
  unfold out1_11
  rw [View.canon_unit_zero hz]
  simp only [View.ld_unit_zero (S := S1x1) hz, View.ld_unit_zero (S := S256x1) hz]
  obtain ⟨-, -, -, -, -, -, -, -, -, -, -, -, -, -, -, -, -, -, -, -, -, -, h0, h1, -⟩ := idx_facts t
  funext j
  obtain ⟨p, q, rfl⟩ : ∃ (p : Fin 256) (q : Fin 1), j = ix2 p q := ⟨j 0, j 1, eq_ix2 j⟩
  show k1_pay1 (k1_pay2 (iblk1 V c 7 t)) (k1_pay3 (iblk1 V c 6 t)) (k1_pay4 (iblk1 V c 2 t)) (iblk1 V c 5 t) (ix2 p q)
    = normArr (V c main_call0_v7) (V c main_call0_v3) (V c main_arg2) (V c main_call0_v17_1) (((cfg1.win 11).blk t).view.emb (ix2 p q))
  refine (pay1_apply _ _ _ _ p q).trans ?_
  have hr : ((((cfg1.win 11).blk t).view.emb (ix2 p q)) 0).val = 256 * t.val + p.val := by
    show win1_11.index t 0 * 256 + 1 * p.val = _; rw [h0]; omega
  unfold normArr
  rw [Subsingleton.elim q 0]
  exact normEntry_congr (fblkGate V c t 0 0) (iblkGate V c t 0 0) (npblk V c t p 0 _ hr) (kblk V c t p 0 _ hr)

/-- Point t writes back block t of the hidden column. -/
theorem flushed12 (c : Dev nD) (t : Fin cfg1.N) :
    (dat1 V c).flushed 12 t = ((cfg1.win 12).blk t).view.read (Elt Ideal)
      (hidArr (V c main_call0_v16) (V c main_call0_v29) (V c main_call0_v7) (V c main_call0_v3) (V c main_arg1) (V c main_call0_v17_2) (V c main_call0_v18) (V c main_call0_v19)) := by
  show (cfg1.win 12).cut (grid1.coords t) ((dat1 V c).after 12 t) = _
  rw [after1_12]
  unfold out1_12
  rw [View.canon_unit_zero hz]
  simp only [View.ld_unit_zero (S := S1x1) hz, View.ld_unit_zero (S := S256x4096) hz, View.ld_unit_zero (S := S256x1) hz, View.ld_unit_zero (S := S1x4096) hz]
  obtain ⟨-, -, -, -, -, -, -, -, -, -, -, -, -, -, -, -, -, -, -, -, -, -, -, -, h0, h1⟩ := idx_facts t
  funext j
  obtain ⟨p, q, rfl⟩ : ∃ (p : Fin 256) (q : Fin 1), j = ix2 p q := ⟨j 0, j 1, eq_ix2 j⟩
  show k1_pay6 (iblk1 V c 7 t) (iblk1 V c 6 t) (iblk1 V c 8 t) (iblk1 V c 9 t) (iblk1 V c 0 t) (iblk1 V c 1 t) (iblk1 V c 3 t) (iblk1 V c 4 t) (ix2 p q)
    = hidArr (V c main_call0_v16) (V c main_call0_v29) (V c main_call0_v7) (V c main_call0_v3) (V c main_arg1) (V c main_call0_v17_2) (V c main_call0_v18) (V c main_call0_v19) (((cfg1.win 12).blk t).view.emb (ix2 p q))
  refine (pay6_apply _ _ _ _ _ _ _ _ p q).trans ?_
  have hr : ((((cfg1.win 12).blk t).view.emb (ix2 p q)) 0).val = 256 * t.val + p.val := by
    show win1_12.index t 0 * 256 + 1 * p.val = _; rw [h0]; omega
  unfold hidArr
  exact hidEntry_congr (oblkGate V c t 0 0)
    (Finset.sum_congr rfl fun k _ => congrArg₂ (· * ·) (memAt V c t p k _ hr) (qrowblk V c t 0 k))
    (dblk V c t 0 0)

/-- An entry of the new memory is in point t's block iff its row is among rows 256·t … 256·t + 255. -/
theorem mem_blk10 (t : Fin cfg1.N) (i : S4096x4096.Idx) :
    i ∈ ((cfg1.win 10).blk t).view.set ↔ ∀ a : Fin 2, win1_10.index t a * S256x4096.size a ≤ (i a).val ∧ (i a).val < win1_10.index t a * S256x4096.size a + S256x4096.size a := by
  show i ∈ ((View.whole main_v0_1).slice (win1_10.rect t)).set ↔ _
  rw [View.set_slice_whole, Rect.mem_set_unit]
  exact Iff.rfl
theorem mem_blk11 (t : Fin cfg1.N) (i : S4096x1.Idx) :
    i ∈ ((cfg1.win 11).blk t).view.set ↔ ∀ a : Fin 2, win1_11.index t a * S256x1.size a ≤ (i a).val ∧ (i a).val < win1_11.index t a * S256x1.size a + S256x1.size a := by
  show i ∈ ((View.whole main_v0_2).slice (win1_11.rect t)).set ↔ _
  rw [View.set_slice_whole, Rect.mem_set_unit]
  exact Iff.rfl
theorem mem_blk12 (t : Fin cfg1.N) (i : S4096x1.Idx) :
    i ∈ ((cfg1.win 12).blk t).view.set ↔ ∀ a : Fin 2, win1_12.index t a * S256x1.size a ≤ (i a).val ∧ (i a).val < win1_12.index t a * S256x1.size a + S256x1.size a := by
  show i ∈ ((View.whole main_v0_0).slice (win1_12.rect t)).set ↔ _
  rw [View.set_slice_whole, Rect.mem_set_unit]
  exact Iff.rfl

/-- The point that holds row r is r / 256. -/
def pointOf (r : Fin 4096) : Fin cfg1.N := ⟨r.val / 256, by
  have h : r.val < 4096 := r.isLt
  rw [show cfg1.N = 16 from N_1]; omega⟩

theorem cover10 (i : S4096x4096.Idx) : ∃ t : Fin cfg1.N, (cfg1.win 10).flush t = true ∧ i ∈ ((cfg1.win 10).blk t).view.set := by
  have hi0 : (i 0).val < 4096 := (i 0).isLt
  have hi1 : (i 1).val < 4096 := (i 1).isLt
  obtain ⟨-, -, -, -, -, -, -, -, -, -, -, -, -, -, -, -, -, -, -, -, h0, h1, -⟩ := idx_facts (pointOf ⟨(i 0).val, hi0⟩)
  have ht : (pointOf ⟨(i 0).val, hi0⟩).val = (i 0).val / 256 := rfl
  refine ⟨pointOf ⟨(i 0).val, hi0⟩, flush1_10 _, ?_⟩
  rw [mem_blk10]
  intro a
  match a with
  | ⟨0, _⟩ => show win1_10.index (pointOf ⟨(i 0).val, hi0⟩) 0 * 256 ≤ (i 0).val ∧ (i 0).val < win1_10.index (pointOf ⟨(i 0).val, hi0⟩) 0 * 256 + 256; rw [h0, ht]; omega
  | ⟨1, _⟩ => show win1_10.index (pointOf ⟨(i 0).val, hi0⟩) 1 * 4096 ≤ (i 1).val ∧ (i 1).val < win1_10.index (pointOf ⟨(i 0).val, hi0⟩) 1 * 4096 + 4096; rw [h1]; omega
theorem cover11 (i : S4096x1.Idx) : ∃ t : Fin cfg1.N, (cfg1.win 11).flush t = true ∧ i ∈ ((cfg1.win 11).blk t).view.set := by
  have hi0 : (i 0).val < 4096 := (i 0).isLt
  have hi1 : (i 1).val < 1 := (i 1).isLt
  obtain ⟨-, -, -, -, -, -, -, -, -, -, -, -, -, -, -, -, -, -, -, -, -, -, h0, h1, -⟩ := idx_facts (pointOf ⟨(i 0).val, hi0⟩)
  have ht : (pointOf ⟨(i 0).val, hi0⟩).val = (i 0).val / 256 := rfl
  refine ⟨pointOf ⟨(i 0).val, hi0⟩, flush1_11 _, ?_⟩
  rw [mem_blk11]
  intro a
  match a with
  | ⟨0, _⟩ => show win1_11.index (pointOf ⟨(i 0).val, hi0⟩) 0 * 256 ≤ (i 0).val ∧ (i 0).val < win1_11.index (pointOf ⟨(i 0).val, hi0⟩) 0 * 256 + 256; rw [h0, ht]; omega
  | ⟨1, _⟩ => show win1_11.index (pointOf ⟨(i 0).val, hi0⟩) 1 * 1 ≤ (i 1).val ∧ (i 1).val < win1_11.index (pointOf ⟨(i 0).val, hi0⟩) 1 * 1 + 1; rw [h1]; omega
theorem cover12 (i : S4096x1.Idx) : ∃ t : Fin cfg1.N, (cfg1.win 12).flush t = true ∧ i ∈ ((cfg1.win 12).blk t).view.set := by
  have hi0 : (i 0).val < 4096 := (i 0).isLt
  have hi1 : (i 1).val < 1 := (i 1).isLt
  obtain ⟨-, -, -, -, -, -, -, -, -, -, -, -, -, -, -, -, -, -, -, -, -, -, -, -, h0, h1⟩ := idx_facts (pointOf ⟨(i 0).val, hi0⟩)
  have ht : (pointOf ⟨(i 0).val, hi0⟩).val = (i 0).val / 256 := rfl
  refine ⟨pointOf ⟨(i 0).val, hi0⟩, flush1_12 _, ?_⟩
  rw [mem_blk12]
  intro a
  match a with
  | ⟨0, _⟩ => show win1_12.index (pointOf ⟨(i 0).val, hi0⟩) 0 * 256 ≤ (i 0).val ∧ (i 0).val < win1_12.index (pointOf ⟨(i 0).val, hi0⟩) 0 * 256 + 256; rw [h0, ht]; omega
  | ⟨1, _⟩ => show win1_12.index (pointOf ⟨(i 0).val, hi0⟩) 1 * 1 ≤ (i 1).val ∧ (i 1).val < win1_12.index (pointOf ⟨(i 0).val, hi0⟩) 1 * 1 + 1; rw [h1]; omega

/-- After the region the memory array is the update's memory. -/
theorem memAfter (c : Dev nD) :
    (dat1 V c).arrAt 10 cfg1.N = memArr (V c main_call0_v7) (V c main_call0_v3) (V c main_arg1) (V c main_call0_v17_2) (V c main_call0_v18) :=
  (dat1 V c).arrAt_eq_of_cover 10 _ (fun t _ => flushed10 V c t) cover10
/-- After the region the normalizer array is the update's normalizer. -/
theorem normAfter (c : Dev nD) :
    (dat1 V c).arrAt 11 cfg1.N = normArr (V c main_call0_v7) (V c main_call0_v3) (V c main_arg2) (V c main_call0_v17_1) :=
  (dat1 V c).arrAt_eq_of_cover 11 _ (fun t _ => flushed11 V c t) cover11
/-- After the region the hidden array is the update's hidden column. -/
theorem hidAfter (c : Dev nD) :
    (dat1 V c).arrAt 12 cfg1.N = hidArr (V c main_call0_v16) (V c main_call0_v29) (V c main_call0_v7) (V c main_call0_v3) (V c main_arg1) (V c main_call0_v17_2) (V c main_call0_v18) (V c main_call0_v19) :=
  (dat1 V c).arrAt_eq_of_cover 12 _ (fun t _ => flushed12 V c t) cover12

end Region

end Cert.KernelIdeal.MemValue

end
-- ==== Proof.KernelValue.lean ====
/-
  The whole kernel program's three results as the specification's arrays of the launch contents.
  The first stretch of host operations computes the three gates (one-entry arrays) from the input column and leaves
  every argument as launched; the first region leaves the query, key and value columns; the second stretch lays the key
  and the query out as rows (a reshape of a 4096 × 1 column to a 1 × 4096 row keeps the row-major order, so entry (0, c)
  of the row is entry (c, 0) of the column) and computes the denominator: the sum over all entries of
  (f·nprev + i·k)·q from a zero initial value, its absolute value, the larger of that and 1; the second region then
  leaves the memory, the normalizer and the hidden column.
-/
import proofs.«431350_j79843442032663_3_alg».proof.Proof.Gen.KernelIdeal.Frame
import proofs.«431350_j79843442032663_3_alg».proof.Proof.CellSpec
import proofs.«431350_j79843442032663_3_alg».proof.Proof.ProjValue
import proofs.«431350_j79843442032663_3_alg».proof.Proof.MemValue
import proofs.«431350_j79843442032663_3_alg».proof.Proof.KernelRun
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.CellValue

open Cert.KernelIdeal Cert.KernelIdeal.Gen Cert.Cell

/-! ## The gates and the denominator as the host operations write them -/

/-- An exponential gate array: exp of (row · column + bias). -/
def expGateArr (W : FVec Ideal S1x2048 .f32) (x : FVec Ideal S2048x1 .f32) (b : FVec Ideal S1 .f32) : FVec Ideal S1x1 .f32 :=
  Host.exp (F := Ideal) (addf (Host.dotGeneral (F := Ideal) dot_S1x2048_S2048x1_S1x1_1_0_0_1_n_n none W x) (broadcastInDim S1x1 ![1] bcast_S1_S1x1_1 b))
/-- The logistic gate array: 1 / (1 + exp (-(row · column + bias))). -/
def sigGateArr (W : FVec Ideal S1x2048 .f32) (x : FVec Ideal S2048x1 .f32) (b : FVec Ideal S1 .f32) : FVec Ideal S1x1 .f32 :=
  Host.divf (F := Ideal) (broadcastInDim S1x1 ![] bcast_S_S1x1 (constant (F := Ideal) S_ .f32 0x3F800000#32))
    (addf (broadcastInDim S1x1 ![] bcast_S_S1x1 (constant (F := Ideal) S_ .f32 0x3F800000#32))
      (Host.exp (F := Ideal) (Host.negf (F := Ideal) (addf (Host.dotGeneral (F := Ideal) dot_S1x2048_S2048x1_S1x1_1_0_0_1_n_n none W x) (broadcastInDim S1x1 ![1] bcast_S1_S1x1_1 b)))))
/-- The denominator array: the larger of 1 and |Σ (f·nprev + i·k)·q|, as a one-entry array. -/
def denArr (fA iA : Mat 1 1) (np K Q : Mat 4096 1) : Mat 1 1 :=
  shapeCast S1x1 (maximumf (F := Ideal) (Host.absf (F := Ideal) (Host.reduceAdd (F := Ideal)
      (mulf (addf (mulf (broadcastInDim S4096x1 ![0, 1] bcast_S1x1_S4096x1_0_1 fA) np) (mulf (broadcastInDim S4096x1 ![0, 1] bcast_S1x1_S4096x1_0_1 iA) K)) Q)
      (constant (F := Ideal) S_ .f32 0x00000000#32) reducesTo_S4096x1_S_d0_1 h_S_)) (constant (F := Ideal) S_ .f32 0x3F800000#32)) shapeCasts_S_S1x1

/-- A one-entry array broadcast down a column is that entry everywhere. -/
theorem bcOneColumn (v : Mat 1 1) (r : Fin 4096) (q : Fin 1) :
    broadcastInDim S4096x1 ![0, 1] bcast_S1x1_S4096x1_0_1 v (ix2 r q) = v (ix2 0 0) :=
  broadcastInDim_apply _ bcast_S1x1_S4096x1_0_1 v (ix2 r q) (ix2 0 0) (fun a => match a with
    | ⟨0, _⟩ => by show (0 : Nat) = if (1 : Nat) = 1 then 0 else _; rw [if_pos rfl]
    | ⟨1, _⟩ => by show (0 : Nat) = if (1 : Nat) = 1 then 0 else _; rw [if_pos rfl])

/-- The denominator array's one entry is the specification's denominator of the same columns. -/
theorem denArr_apply (fA iA : Mat 1 1) (np K Q : Mat 4096 1) :
    denArr fA iA np K Q (ix2 0 0)
      = denomOf (∑ r : Fin 4096, normEntry (fA (ix2 0 0)) (iA (ix2 0 0)) (np (ix2 r 0)) (K (ix2 r 0)) * Q (ix2 r 0)) := by
  have hR : Host.reduceAdd (F := Ideal)
      (mulf (addf (mulf (broadcastInDim S4096x1 ![0, 1] bcast_S1x1_S4096x1_0_1 fA) np) (mulf (broadcastInDim S4096x1 ![0, 1] bcast_S1x1_S4096x1_0_1 iA) K)) Q)
      (constant (F := Ideal) S_ .f32 0x00000000#32) reducesTo_S4096x1_S_d0_1 h_S_ ix0
      = ∑ r : Fin 4096, normEntry (fA (ix2 0 0)) (iA (ix2 0 0)) (np (ix2 r 0)) (K (ix2 r 0)) * Q (ix2 r 0) := by
    unfold Host.reduceAdd
    refine (Ideal.hostReduceAdd_total reducesTo_S4096x1_S_d0_1 (fun b => b.elim0) _ _ ix0).trans ?_
    rw [show (constant (F := Ideal) S_ .f32 0x00000000#32 (Shape.Idx.first h_S_) : EReal) = 0 from Ideal.ofBits_zero_f32, zero_add]
    refine (sum_idx2 (n0 := 4096) (n1 := 1) _).trans ?_
    refine Finset.sum_congr rfl fun r _ => ?_
    rw [Fin.sum_univ_one]
    show (broadcastInDim S4096x1 ![0, 1] bcast_S1x1_S4096x1_0_1 fA (ix2 r 0) * np (ix2 r 0)
        + broadcastInDim S4096x1 ![0, 1] bcast_S1x1_S4096x1_0_1 iA (ix2 r 0) * K (ix2 r 0)) * Q (ix2 r 0) = _
    rw [bcOneColumn, bcOneColumn]
    rfl
  unfold denArr
  refine (shapeCast_apply _ shapeCasts_S_S1x1 (ix2 0 0) ix0 ?_).trans ?_
  · rewrite [Shape.rowMajor_val_two]
    exact Fin.val_eq_zero _
  · show max (max (Host.reduceAdd (F := Ideal) _ _ reducesTo_S4096x1_S_d0_1 h_S_ ix0) (-(Host.reduceAdd (F := Ideal) _ _ reducesTo_S4096x1_S_d0_1 h_S_ ix0))) (Ideal.ofBits .f32 0x3F800000#32) = _
    rw [hR]
    rfl

/-- A 4096 × 1 column laid out as a 1 × 4096 row: entry (0, k) of the row is entry (k, 0) of the column. -/
theorem rowCast_apply (v : Mat 4096 1) (a0 : Fin 1) (k : Fin 4096) :
    shapeCast S1x4096 v shapeCasts_S4096x1_S1x4096 (ix2 a0 k) = v (ix2 k 0) :=
  shapeCast_apply v shapeCasts_S4096x1_S1x4096 (ix2 a0 k) (ix2 k 0)
    (by rewrite [Shape.rowMajor_val_two, Shape.rowMajor_val_two]; have h0 : a0.val < 1 := a0.isLt; show k.val * 1 + 0 = a0.val * 4096 + k.val; omega)

section Run
variable (m : (ℓ : Loc nD τ sig) → Buf (Elt Ideal) ℓ) (ρ : Dev nD → PrngReg)

/-! ## The first stretch: the arguments stay, the gates are written -/

theorem V1_arg0 (c : Dev nD) : V1 m ρ c main_arg0 = m ((c : Thread nD τ).loc main_arg0) := by
  show StableHlo.after hostOps0 (W0 m ρ c) (Proc.devRef .tc main_arg0) = _
  dsimp only [hostOps0]
  after_results <;> rfl
theorem V1_arg1 (c : Dev nD) : V1 m ρ c main_arg1 = m ((c : Thread nD τ).loc main_arg1) := by
  show StableHlo.after hostOps0 (W0 m ρ c) (Proc.devRef .tc main_arg1) = _
  dsimp only [hostOps0]
  after_results <;> rfl
theorem V1_arg2 (c : Dev nD) : V1 m ρ c main_arg2 = m ((c : Thread nD τ).loc main_arg2) := by
  show StableHlo.after hostOps0 (W0 m ρ c) (Proc.devRef .tc main_arg2) = _
  dsimp only [hostOps0]
  after_results <;> rfl
theorem V1_arg3 (c : Dev nD) : V1 m ρ c main_arg3 = m ((c : Thread nD τ).loc main_arg3) := by
  show StableHlo.after hostOps0 (W0 m ρ c) (Proc.devRef .tc main_arg3) = _
  dsimp only [hostOps0]
  after_results <;> rfl
theorem V1_arg4 (c : Dev nD) : V1 m ρ c main_arg4 = m ((c : Thread nD τ).loc main_arg4) := by
  show StableHlo.after hostOps0 (W0 m ρ c) (Proc.devRef .tc main_arg4) = _
  dsimp only [hostOps0]
  after_results <;> rfl
theorem V1_arg5 (c : Dev nD) : V1 m ρ c main_arg5 = m ((c : Thread nD τ).loc main_arg5) := by
  show StableHlo.after hostOps0 (W0 m ρ c) (Proc.devRef .tc main_arg5) = _
  dsimp only [hostOps0]
  after_results <;> rfl
theorem V1_arg6 (c : Dev nD) : V1 m ρ c main_arg6 = m ((c : Thread nD τ).loc main_arg6) := by
  show StableHlo.after hostOps0 (W0 m ρ c) (Proc.devRef .tc main_arg6) = _
  dsimp only [hostOps0]
  after_results <;> rfl
theorem V1_arg7 (c : Dev nD) : V1 m ρ c main_arg7 = m ((c : Thread nD τ).loc main_arg7) := by
  show StableHlo.after hostOps0 (W0 m ρ c) (Proc.devRef .tc main_arg7) = _
  dsimp only [hostOps0]
  after_results <;> rfl
theorem V1_arg8 (c : Dev nD) : V1 m ρ c main_arg8 = m ((c : Thread nD τ).loc main_arg8) := by
  show StableHlo.after hostOps0 (W0 m ρ c) (Proc.devRef .tc main_arg8) = _
  dsimp only [hostOps0]
  after_results <;> rfl

/-- The input gate as the first stretch leaves it. -/
theorem V1_inGate (c : Dev nD) : V1 m ρ c main_call0_v3 = expGateArr (m ((c : Thread nD τ).loc main_arg9)) (m ((c : Thread nD τ).loc main_arg0)) (m ((c : Thread nD τ).loc main_arg10)) := by
  show StableHlo.after hostOps0 (W0 m ρ c) (Proc.devRef .tc main_call0_v3) = _
  dsimp only [hostOps0]
  after_results <;> rfl
/-- The forget gate as the first stretch leaves it. -/
theorem V1_fgGate (c : Dev nD) : V1 m ρ c main_call0_v7 = expGateArr (m ((c : Thread nD τ).loc main_arg11)) (m ((c : Thread nD τ).loc main_arg0)) (m ((c : Thread nD τ).loc main_arg12)) := by
  show StableHlo.after hostOps0 (W0 m ρ c) (Proc.devRef .tc main_call0_v7) = _
  dsimp only [hostOps0]
  after_results <;> rfl
/-- The output gate as the first stretch leaves it. -/
theorem V1_outGate (c : Dev nD) : V1 m ρ c main_call0_v16 = sigGateArr (m ((c : Thread nD τ).loc main_arg13)) (m ((c : Thread nD τ).loc main_arg0)) (m ((c : Thread nD τ).loc main_arg14)) := by
  show StableHlo.after hostOps0 (W0 m ρ c) (Proc.devRef .tc main_call0_v16) = _
  dsimp only [hostOps0]
  after_results <;> rfl

/-! ## After the first region -/

theorem W2_arg1 (c : Dev nD) : W2 m ρ c (Proc.devRef .tc main_arg1) = m ((c : Thread nD τ).loc main_arg1) :=
  (W2_of_ne m ρ c main_arg1 (by decide)).trans (V1_arg1 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_inGate (c : Dev nD) : W2 m ρ c (Proc.devRef .tc main_call0_v3) = expGateArr (m ((c : Thread nD τ).loc main_arg9)) (m ((c : Thread nD τ).loc main_arg0)) (m ((c : Thread nD τ).loc main_arg10)) :=
  (W2_of_ne m ρ c main_call0_v3 (by decide)).trans (V1_inGate m ρ c)
theorem W2_fgGate (c : Dev nD) : W2 m ρ c (Proc.devRef .tc main_call0_v7) = expGateArr (m ((c : Thread nD τ).loc main_arg11)) (m ((c : Thread nD τ).loc main_arg0)) (m ((c : Thread nD τ).loc main_arg12)) :=
  (W2_of_ne m ρ c main_call0_v7 (by decide)).trans (V1_fgGate m ρ c)
theorem W2_outGate (c : Dev nD) : W2 m ρ c (Proc.devRef .tc main_call0_v16) = sigGateArr (m ((c : Thread nD τ).loc main_arg13)) (m ((c : Thread nD τ).loc main_arg0)) (m ((c : Thread nD τ).loc main_arg14)) :=
  (W2_of_ne m ρ c main_call0_v16 (by decide)).trans (V1_outGate m ρ c)

/-- The query column after the first region. -/
theorem W2_query (c : Dev nD) : W2 m ρ c (Proc.devRef .tc main_call0_v17_0) = projCol (R := 4096) (K := 2048) (m ((c : Thread nD τ).loc main_arg3)) (m ((c : Thread nD τ).loc main_arg0)) (m ((c : Thread nD τ).loc main_arg4)) := by
  refine (W2_arr m ρ c 7).trans ?_
  rw [ProjValue.queryAfter (V1 m ρ) c, V1_arg3, V1_arg0, V1_arg4]
/-- The key column after the first region. -/
theorem W2_key (c : Dev nD) : W2 m ρ c (Proc.devRef .tc main_call0_v17_1) = keyCol (R := 4096) (K := 2048) (m ((c : Thread nD τ).loc main_arg5)) (m ((c : Thread nD τ).loc main_arg0)) (m ((c : Thread nD τ).loc main_arg6)) := by
  refine (W2_arr m ρ c 8).trans ?_
  rw [ProjValue.keyAfter (V1 m ρ) c, V1_arg5, V1_arg0, V1_arg6]
/-- The value column after the first region. -/
theorem W2_value (c : Dev nD) : W2 m ρ c (Proc.devRef .tc main_call0_v17_2) = projCol (R := 4096) (K := 2048) (m ((c : Thread nD τ).loc main_arg7)) (m ((c : Thread nD τ).loc main_arg0)) (m ((c : Thread nD τ).loc main_arg8)) := by
  refine (W2_arr m ρ c 9).trans ?_
  rw [ProjValue.valueAfter (V1 m ρ) c, V1_arg7, V1_arg0, V1_arg8]

/-! ## The second stretch: what the second region is entered with -/

theorem V3_arg1 (c : Dev nD) : V3 m ρ c main_arg1 = m ((c : Thread nD τ).loc main_arg1) := by
  refine Eq.trans ?_ (W2_arg1 m ρ c)
  show StableHlo.after hostOps1 (W2 m ρ c) (Proc.devRef .tc main_arg1) = _
  dsimp only [hostOps1]
  after_results <;> rfl
theorem V3_arg2 (c : Dev nD) : V3 m ρ c main_arg2 = m ((c : Thread nD τ).loc main_arg2) := by
  refine Eq.trans ?_ (W2_arg2 m ρ c)
  show StableHlo.after hostOps1 (W2 m ρ c) (Proc.devRef .tc main_arg2) = _
  dsimp only [hostOps1]
  after_results <;> rfl
theorem V3_inGate (c : Dev nD) : V3 m ρ c main_call0_v3 = expGateArr (m ((c : Thread nD τ).loc main_arg9)) (m ((c : Thread nD τ).loc main_arg0)) (m ((c : Thread nD τ).loc main_arg10)) := by
  refine Eq.trans ?_ (W2_inGate m ρ c)
  show StableHlo.after hostOps1 (W2 m ρ c) (Proc.devRef .tc main_call0_v3) = _
  dsimp only [hostOps1]
  after_results <;> rfl
theorem V3_fgGate (c : Dev nD) : V3 m ρ c main_call0_v7 = expGateArr (m ((c : Thread nD τ).loc main_arg11)) (m ((c : Thread nD τ).loc main_arg0)) (m ((c : Thread nD τ).loc main_arg12)) := by
  refine Eq.trans ?_ (W2_fgGate m ρ c)
  show StableHlo.after hostOps1 (W2 m ρ c) (Proc.devRef .tc main_call0_v7) = _
  dsimp only [hostOps1]
  after_results <;> rfl
theorem V3_outGate (c : Dev nD) : V3 m ρ c main_call0_v16 = sigGateArr (m ((c : Thread nD τ).loc main_arg13)) (m ((c : Thread nD τ).loc main_arg0)) (m ((c : Thread nD τ).loc main_arg14)) := by
  refine Eq.trans ?_ (W2_outGate m ρ c)
  show StableHlo.after hostOps1 (W2 m ρ c) (Proc.devRef .tc main_call0_v16) = _
  dsimp only [hostOps1]
  after_results <;> rfl
theorem V3_key (c : Dev nD) : V3 m ρ c main_call0_v17_1 = keyCol (R := 4096) (K := 2048) (m ((c : Thread nD τ).loc main_arg5)) (m ((c : Thread nD τ).loc main_arg0)) (m ((c : Thread nD τ).loc main_arg6)) := by
  refine Eq.trans ?_ (W2_key m ρ c)
  show StableHlo.after hostOps1 (W2 m ρ c) (Proc.devRef .tc main_call0_v17_1) = _
  dsimp only [hostOps1]
  after_results <;> rfl
theorem V3_value (c : Dev nD) : V3 m ρ c main_call0_v17_2 = projCol (R := 4096) (K := 2048) (m ((c : Thread nD τ).loc main_arg7)) (m ((c : Thread nD τ).loc main_arg0)) (m ((c : Thread nD τ).loc main_arg8)) := by
  refine Eq.trans ?_ (W2_value m ρ c)
  show StableHlo.after hostOps1 (W2 m ρ c) (Proc.devRef .tc main_call0_v17_2) = _
  dsimp only [hostOps1]
  after_results <;> rfl
/-- The key laid out as a row. -/
theorem V3_keyRow (c : Dev nD) : V3 m ρ c main_call0_v18
    = shapeCast S1x4096 (keyCol (R := 4096) (K := 2048) (m ((c : Thread nD τ).loc main_arg5)) (m ((c : Thread nD τ).loc main_arg0)) (m ((c : Thread nD τ).loc main_arg6))) shapeCasts_S4096x1_S1x4096 := by
  rw [← W2_key m ρ c]
  show StableHlo.after hostOps1 (W2 m ρ c) (Proc.devRef .tc main_call0_v18) = _
  dsimp only [hostOps1]
  after_results <;> rfl
/-- The query laid out as a row. -/
theorem V3_queryRow (c : Dev nD) : V3 m ρ c main_call0_v19
    = shapeCast S1x4096 (projCol (R := 4096) (K := 2048) (m ((c : Thread nD τ).loc main_arg3)) (m ((c : Thread nD τ).loc main_arg0)) (m ((c : Thread nD τ).loc main_arg4))) shapeCasts_S4096x1_S1x4096 := by
  rw [← W2_query m ρ c]
  show StableHlo.after hostOps1 (W2 m ρ c) (Proc.devRef .tc main_call0_v19) = _
  dsimp only [hostOps1]
  after_results <;> rfl
/-- The denominator array. -/
theorem V3_den (c : Dev nD) : V3 m ρ c main_call0_v29
    = denArr (expGateArr (m ((c : Thread nD τ).loc main_arg11)) (m ((c : Thread nD τ).loc main_arg0)) (m ((c : Thread nD τ).loc main_arg12))) (expGateArr (m ((c : Thread nD τ).loc main_arg9)) (m ((c : Thread nD τ).loc main_arg0)) (m ((c : Thread nD τ).loc main_arg10))) (m ((c : Thread nD τ).loc main_arg2))
        (keyCol (R := 4096) (K := 2048) (m ((c : Thread nD τ).loc main_arg5)) (m ((c : Thread nD τ).loc main_arg0)) (m ((c : Thread nD τ).loc main_arg6))) (projCol (R := 4096) (K := 2048) (m ((c : Thread nD τ).loc main_arg3)) (m ((c : Thread nD τ).loc main_arg0)) (m ((c : Thread nD τ).loc main_arg4))) := by
  rw [← W2_fgGate m ρ c, ← W2_inGate m ρ c, ← W2_arg2 m ρ c, ← W2_key m ρ c, ← W2_query m ρ c]
  show StableHlo.after hostOps1 (W2 m ρ c) (Proc.devRef .tc main_call0_v29) = _
  dsimp only [hostOps1]
  after_results <;> rfl

/-! ## The three results -/

/-- The memory array the run ends with is the specification's new memory of the launch contents. -/
theorem memory_result (c : Dev nD) : W4 m ρ c (Proc.devRef .tc main_v0_1)
    = newC (expGateArr (m ((c : Thread nD τ).loc main_arg11)) (m ((c : Thread nD τ).loc main_arg0)) (m ((c : Thread nD τ).loc main_arg12))) (expGateArr (m ((c : Thread nD τ).loc main_arg9)) (m ((c : Thread nD τ).loc main_arg0)) (m ((c : Thread nD τ).loc main_arg10))) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  refine (W4_arr m ρ c 10).trans ?_
  rw [MemValue.memAfter (V3 m ρ) c, V3_fgGate, V3_inGate, V3_arg1, V3_value, V3_keyRow]
  funext j
  obtain ⟨p, k, rfl⟩ : ∃ (p k : Fin 4096), j = ix2 p k := ⟨j 0, j 1, eq_ix2 j⟩
  rw [memArr_apply]
  unfold newC
  exact memEntry_congr rfl rfl rfl rfl (rowCast_apply _ 0 k)

/-- The normalizer array the run ends with is the specification's new normalizer. -/
theorem normalizer_result (c : Dev nD) : W4 m ρ c (Proc.devRef .tc main_v0_2)
    = newN (expGateArr (m ((c : Thread nD τ).loc main_arg11)) (m ((c : Thread nD τ).loc main_arg0)) (m ((c : Thread nD τ).loc main_arg12))) (expGateArr (m ((c : Thread nD τ).loc main_arg9)) (m ((c : Thread nD τ).loc main_arg0)) (m ((c : Thread nD τ).loc main_arg10))) (m ((c : Thread nD τ).loc main_arg0)) (m ((c : Thread nD τ).loc main_arg2)) (m ((c : Thread nD τ).loc main_arg5)) (m ((c : Thread nD τ).loc main_arg6)) := by
  refine (W4_arr m ρ c 11).trans ?_
  rw [MemValue.normAfter (V3 m ρ) c, V3_fgGate, V3_inGate, V3_arg2, V3_key]
  rfl

/-- The hidden column the run ends with is the specification's new hidden column. -/
theorem hidden_result (c : Dev nD) : W4 m ρ c (Proc.devRef .tc main_v0_0)
    = newH (expGateArr (m ((c : Thread nD τ).loc main_arg11)) (m ((c : Thread nD τ).loc main_arg0)) (m ((c : Thread nD τ).loc main_arg12))) (expGateArr (m ((c : Thread nD τ).loc main_arg9)) (m ((c : Thread nD τ).loc main_arg0)) (m ((c : Thread nD τ).loc main_arg10))) (sigGateArr (m ((c : Thread nD τ).loc main_arg13)) (m ((c : Thread nD τ).loc main_arg0)) (m ((c : Thread nD τ).loc main_arg14)))
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 12).trans ?_
  rw [MemValue.hidAfter (V3 m ρ) c, V3_outGate, V3_den, V3_fgGate, V3_inGate, V3_arg1, V3_value, V3_keyRow, V3_queryRow]
  funext j
  obtain ⟨p, q, rfl⟩ : ∃ (p : Fin 4096) (q : Fin 1), j = ix2 p q := ⟨j 0, j 1, eq_ix2 j⟩
  unfold hidArr newH newDen
  refine hidEntry_congr rfl (Finset.sum_congr rfl fun k _ => congrArg₂ (· * ·) ?_ (rowCast_apply _ 0 k)) ((denArr_apply _ _ _ _ _).trans rfl)
  rw [memArr_apply]
  unfold newC
  exact memEntry_congr rfl rfl rfl rfl (rowCast_apply _ 0 k)

/-- The kernel program's run with its three results named: the hidden column, the matrix memory and the normalizer are
    the specification's arrays of the launch contents, and the arguments end as launched. -/
theorem run : θ_run defs (onTc (τ := τ) (main (F := Ideal))) ⟨m, fun _ => 0, ρ⟩ (fun r => ∀ c : Dev nD,
      r.2.mem ((c.tc : Thread nD τ).loc main_v0_0)
        = newH (expGateArr (m ((c.tc : Thread nD τ).loc main_arg11)) (m ((c.tc : Thread nD τ).loc main_arg0)) (m ((c.tc : Thread nD τ).loc main_arg12))) (expGateArr (m ((c.tc : Thread nD τ).loc main_arg9)) (m ((c.tc : Thread nD τ).loc main_arg0)) (m ((c.tc : Thread nD τ).loc main_arg10))) (sigGateArr (m ((c.tc : Thread nD τ).loc main_arg13)) (m ((c.tc : Thread nD τ).loc main_arg0)) (m ((c.tc : Thread nD τ).loc main_arg14)))
            (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v0_1)
        = newC (expGateArr (m ((c.tc : Thread nD τ).loc main_arg11)) (m ((c.tc : Thread nD τ).loc main_arg0)) (m ((c.tc : Thread nD τ).loc main_arg12))) (expGateArr (m ((c.tc : Thread nD τ).loc main_arg9)) (m ((c.tc : Thread nD τ).loc main_arg0)) (m ((c.tc : Thread nD τ).loc main_arg10))) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v0_2)
        = newN (expGateArr (m ((c.tc : Thread nD τ).loc main_arg11)) (m ((c.tc : Thread nD τ).loc main_arg0)) (m ((c.tc : Thread nD τ).loc main_arg12))) (expGateArr (m ((c.tc : Thread nD τ).loc main_arg9)) (m ((c.tc : Thread nD τ).loc main_arg0)) (m ((c.tc : Thread nD τ).loc main_arg10))) (m ((c.tc : Thread nD τ).loc main_arg0)) (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (hidden_result m ρ c), (h c).2.1.trans (memory_result m ρ c),
      (h c).2.2.1.trans (normalizer_result m ρ c), (h c).2.2.2⟩) (Cert.KernelIdeal.Run.run_results (F := Ideal) m ρ)

end Run

end Cert.KernelIdeal.CellValue

end
-- ==== Proof.RefValue.lean ====
/-
  The reference computes the same step with whole-array operations: three matrix-vector products plus biases (the key
  scaled by 1/64), the outer product v·kᵀ by two broadcasts, C = f·Cprev + i·(v kᵀ), n = f·nprev + i·k, the denominator
  max(|nᵀ·q|, 1) by a transpose and a 1 × 4096 by 4096 × 1 product, and h = o·((C·q) / denominator). Read at an entry,
  each of these is the specification's entry: a product of a matrix with a column is the row's sum, a reshape or a
  broadcast only renames the entry it reads, and the transpose swaps the two coordinates. The three gates are kept as
  the one-entry arrays the reference computes.
-/
import proofs.«431350_j79843442032663_3_alg».proof.Proof.Gen.ReferenceIdeal.Read
import proofs.«431350_j79843442032663_3_alg».proof.Proof.CellSpec

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.Cell

variable (x0 : Mat 2048 1) (x1 : Mat 4096 4096) (x2 : Mat 4096 1) (x3 : Mat 4096 2048) (x4 : Mat 4096 1) (x5 : Mat 4096 2048) (x6 : Mat 4096 1)
  (x7 : Mat 4096 2048) (x8 : Mat 4096 1) (x9 : Mat 1 2048) (x10 : One) (x11 : Mat 1 2048) (x12 : One) (x13 : Mat 1 2048) (x14 : One)

/-! ## The three projection columns -/

/-- The query column's entry r is the query projection. -/
theorem query_apply (r : Fin 4096) (q : Fin 1) : val_main_v1 (F := Ideal) x0 x3 x4 (ix2 r q) = proj x3 x0 x4 r := by
  rw [val_main_v1_apply, val_main_v0_apply]
  have hl : ∀ k, lidx_main_v0 (ix2 r q) k = ix2 r k := fun k => funext fun a => Fin.ext (by
    match a with
    | ⟨0, _⟩ => rfl
    | ⟨1, _⟩ => rfl)
  have hr : ∀ k, ridx_main_v0 (ix2 r q) k = ix2 k (0 : Fin 1) := fun k => funext fun a => Fin.ext (by
    match a with
    | ⟨0, _⟩ => rfl
    | ⟨1, _⟩ => have := q.isLt; show q.val = 0; omega)
  simp only [hl, hr]
  rw [Subsingleton.elim q 0]
  rfl

/-- The value column's entry r is the value projection. -/
theorem value_apply (r : Fin 4096) (q : Fin 1) : val_main_v7 (F := Ideal) x0 x7 x8 (ix2 r q) = proj x7 x0 x8 r := by
  rw [val_main_v7_apply, val_main_v6_apply]
  have hl : ∀ k, lidx_main_v6 (ix2 r q) k = ix2 r k := fun k => funext fun a => Fin.ext (by
    match a with
    | ⟨0, _⟩ => rfl
    | ⟨1, _⟩ => rfl)
  have hr : ∀ k, ridx_main_v6 (ix2 r q) k = ix2 k (0 : Fin 1) := fun k => funext fun a => Fin.ext (by
    match a with
    | ⟨0, _⟩ => rfl
    | ⟨1, _⟩ => have := q.isLt; show q.val = 0; omega)
  simp only [hl, hr]
  rw [Subsingleton.elim q 0]
  rfl

/-- The key column's entry r is the scaled key projection. -/
theorem key_apply (r : Fin 4096) (q : Fin 1) : val_main_v5 (F := Ideal) x0 x5 x6 (ix2 r q) = key x5 x0 x6 r := by
  rw [val_main_v5_apply, val_main_v4_apply, val_main_cst_apply, val_main_v3_apply, val_main_v2_apply]
  have hl : ∀ k, lidx_main_v2 (ix2 r q) k = ix2 r k := fun k => funext fun a => Fin.ext (by
    match a with
    | ⟨0, _⟩ => rfl
    | ⟨1, _⟩ => rfl)
  have hr : ∀ k, ridx_main_v2 (ix2 r q) k = ix2 k (0 : Fin 1) := fun k => funext fun a => Fin.ext (by
    match a with
    | ⟨0, _⟩ => rfl
    | ⟨1, _⟩ => have := q.isLt; show q.val = 0; omega)
  simp only [hl, hr]
  rw [Subsingleton.elim q 0]
  rfl

/-! ## The entries the layout operations read -/

theorem gate_idx18 (j : S4096x4096.Idx) : idx_main_v18 j = ix2 (0 : Fin 1) (0 : Fin 1) := funext fun a => Fin.ext (by
  match a with
  | ⟨0, _⟩ => rfl
  | ⟨1, _⟩ => rfl)
theorem gate_idx25 (j : S4096x4096.Idx) : idx_main_v25 j = ix2 (0 : Fin 1) (0 : Fin 1) := funext fun a => Fin.ext (by
  match a with
  | ⟨0, _⟩ => rfl
  | ⟨1, _⟩ => rfl)
theorem gate_idx28 (j : S4096x1.Idx) : idx_main_v28 j = ix2 (0 : Fin 1) (0 : Fin 1) := funext fun a => Fin.ext (by
  match a with
  | ⟨0, _⟩ => rfl
  | ⟨1, _⟩ => rfl)
theorem gate_idx31 (j : S4096x1.Idx) : idx_main_v31 j = ix2 (0 : Fin 1) (0 : Fin 1) := funext fun a => Fin.ext (by
  match a with
  | ⟨0, _⟩ => rfl
  | ⟨1, _⟩ => rfl)
theorem gate_idx40 (j : S4096x1.Idx) : idx_main_v40 j = ix2 (0 : Fin 1) (0 : Fin 1) := funext fun a => Fin.ext (by
  match a with
  | ⟨0, _⟩ => rfl
  | ⟨1, _⟩ => rfl)
theorem gate_idx51 (j : S4096x1.Idx) : idx_main_v51 j = ix2 (0 : Fin 1) (0 : Fin 1) := funext fun a => Fin.ext (by
  match a with
  | ⟨0, _⟩ => rfl
  | ⟨1, _⟩ => rfl)

/-- The value column broadcast along the lanes reads, at (p, c), the column's entry p. -/
theorem vcol_idx (p c : Fin 4096) : idx_main_v16 (idx_main_v20 (idx_main_v22 (ix2 p c))) = ix2 p (0 : Fin 1) := funext fun a => Fin.ext (by
  match a with
  | ⟨0, _⟩ => show p.val / 1 = p.val; exact Nat.div_one _
  | ⟨1, _⟩ => rfl)
/-- The key column laid out as a row and broadcast down the rows reads, at (p, c), the column's entry c. -/
theorem krow_idx (p c : Fin 4096) : idx_main_v17 (idx_main_v21 (idx_main_v23 (ix2 p c))) = ix2 c (0 : Fin 1) := funext fun a => Fin.ext (by
  match a with
  | ⟨0, _⟩ => show c.val / 1 = c.val; exact Nat.div_one _
  | ⟨1, _⟩ => rfl)
/-- The key column reshaped and broadcast back to a column reads, at (p, q), the column's entry p. -/
theorem kcol_idx (p : Fin 4096) (q : Fin 1) : idx_main_v17 (idx_main_v30 (ix2 p q)) = ix2 p (0 : Fin 1) := funext fun a => Fin.ext (by
  match a with
  | ⟨0, _⟩ => show p.val / 1 = p.val; exact Nat.div_one _
  | ⟨1, _⟩ => rfl)

/-! ## The three results -/

/-- The reference's memory is the specification's, over the gates it computes. -/
theorem memory_eq :
    val_main_v27 (F := Ideal) x0 x1 x5 x6 x7 x8 x9 x10 x11 x12
      = newC (val_main_v15 (F := Ideal) x0 x11 x12) (val_main_v11 (F := Ideal) x0 x9 x10) x0 x1 x5 x6 x7 x8 := by
  funext j
  obtain ⟨p, c, rfl⟩ : ∃ (p c : Fin 4096), j = ix2 p c := ⟨j 0, j 1, eq_ix2 j⟩
  rw [val_main_v27_apply, val_main_v19_apply, val_main_v18_apply, val_main_v26_apply, val_main_v25_apply, val_main_v24_apply,
    val_main_v22_apply, val_main_v20_apply, val_main_v16_apply, val_main_v23_apply, val_main_v21_apply, val_main_v17_apply,
    gate_idx18, gate_idx25, vcol_idx, krow_idx, value_apply, key_apply]
  rfl

/-- The reference's normalizer is the specification's. -/
theorem normalizer_eq :
    val_main_v33 (F := Ideal) x0 x2 x5 x6 x9 x10 x11 x12
      = newN (val_main_v15 (F := Ideal) x0 x11 x12) (val_main_v11 (F := Ideal) x0 x9 x10) x0 x2 x5 x6 := by
  funext j
  obtain ⟨p, q, rfl⟩ : ∃ (p : Fin 4096) (q : Fin 1), j = ix2 p q := ⟨j 0, j 1, eq_ix2 j⟩
  rw [val_main_v33_apply, val_main_v29_apply, val_main_v28_apply, val_main_v32_apply, val_main_v31_apply, val_main_v30_apply,
    val_main_v17_apply, gate_idx28, gate_idx31, kcol_idx, key_apply]
  rw [Subsingleton.elim q 0]
  rfl

/-- The reference's hidden column is the specification's. -/
theorem hidden_eq :
    val_main_v52 (F := Ideal) x0 x1 x2 x3 x4 x5 x6 x7 x8 x9 x10 x11 x12 x13 x14
      = newH (val_main_v15 (F := Ideal) x0 x11 x12) (val_main_v11 (F := Ideal) x0 x9 x10) (val_main_v50 (F := Ideal) x0 x13 x14)
          x0 x1 x2 x3 x4 x5 x6 x7 x8 := by
  funext j
  obtain ⟨p, q, rfl⟩ : ∃ (p : Fin 4096) (q : Fin 1), j = ix2 p q := ⟨j 0, j 1, eq_ix2 j⟩
  rw [val_main_v52_apply, val_main_v51_apply, val_main_v41_apply, val_main_v39_apply, val_main_v40_apply, val_main_v38_apply,
    val_main_v36_apply, val_main_v35_apply, val_main_v37_apply, val_main_cst_0_apply, gate_idx51, gate_idx40]
  have hC : ∀ k : Fin 4096, val_main_v27 (F := Ideal) x0 x1 x5 x6 x7 x8 x9 x10 x11 x12 (lidx_main_v39 (ix2 p q) k) * val_main_v1 (F := Ideal) x0 x3 x4 (ridx_main_v39 (ix2 p q) k)
      = newC (val_main_v15 (F := Ideal) x0 x11 x12) (val_main_v11 (F := Ideal) x0 x9 x10) x0 x1 x5 x6 x7 x8 (ix2 p k) * proj x3 x0 x4 k := fun k => by
    have e1 : lidx_main_v39 (ix2 p q) k = ix2 p k := funext fun a => Fin.ext (by
      match a with
      | ⟨0, _⟩ => rfl
      | ⟨1, _⟩ => rfl)
    have e2 : ridx_main_v39 (ix2 p q) k = ix2 k q := funext fun a => Fin.ext (by
      match a with
      | ⟨0, _⟩ => rfl
      | ⟨1, _⟩ => rfl)
    rw [e1, e2, memory_eq, query_apply]
  have hN : ∀ k : Fin 4096, val_main_v34 (F := Ideal) x0 x2 x5 x6 x9 x10 x11 x12 (lidx_main_v35 (ix2 (0 : Fin 1) (0 : Fin 1)) k) * val_main_v1 (F := Ideal) x0 x3 x4 (ridx_main_v35 (ix2 (0 : Fin 1) (0 : Fin 1)) k)
      = newN (val_main_v15 (F := Ideal) x0 x11 x12) (val_main_v11 (F := Ideal) x0 x9 x10) x0 x2 x5 x6 (ix2 k (0 : Fin 1)) * proj x3 x0 x4 k := fun k => by
    have e1 : idx_main_v34 (lidx_main_v35 (ix2 (0 : Fin 1) (0 : Fin 1)) k) = ix2 k (0 : Fin 1) := funext fun a => Fin.ext (by
      match a with
      | ⟨0, _⟩ => rfl
      | ⟨1, _⟩ => rfl)
    have e2 : ridx_main_v35 (ix2 (0 : Fin 1) (0 : Fin 1)) k = ix2 k (0 : Fin 1) := funext fun a => Fin.ext (by
      match a with
      | ⟨0, _⟩ => rfl
      | ⟨1, _⟩ => rfl)
    rw [val_main_v34_apply, e1, e2, normalizer_eq, query_apply]
  simp only [hC, hN]
  rfl

end Cert.ReferenceIdeal.RefValue

end
-- ==== Proof.lean ====
/-
  The certificate of the matrix-memory cell step.

  The kernel program computes the step in two tiled regions with host operations between them: the first region writes
  the query, key and value columns in eight row blocks; the host side computes the three gates and the denominator;
  the second region writes the new memory, the new normalizer and the hidden column in sixteen row blocks. The
  reference computes the same step with whole-array operations. At the exact values both are the one specification
  (Proof/CellSpec.lean): the kernel's results by Proof/ProjValue.lean, Proof/MemValue.lean and Proof/KernelValue.lean,
  the reference's by Proof/RefValue.lean. The only differences are the order of the two factors in the key's scaling
  (a product commutes), a block product or lane sum against a whole-array product (both the plain finite sum), the total
  sum from a zero initial value against a product with a transposed column, and changes of float format (the identity
  at the exact values). No step needs the inputs to be finite. The three gates are computed by the same host
  operations in both programs, so they are compared as whole terms.
-/
import proofs.«431350_j79843442032663_3_alg».proof.Defs
import proofs.«431350_j79843442032663_3_alg».proof.Proof.Gen.Kernel
import proofs.«431350_j79843442032663_3_alg».proof.Proof.Gen.Kernel.Skeleton
import proofs.«431350_j79843442032663_3_alg».proof.Proof.Gen.Kernel.Launch
import proofs.«431350_j79843442032663_3_alg».proof.Proof.Gen.Kernel.Points
import proofs.«431350_j79843442032663_3_alg».proof.Proof.Gen.Kernel.Frame
import proofs.«431350_j79843442032663_3_alg».proof.Proof.Gen.KernelIdeal
import proofs.«431350_j79843442032663_3_alg».proof.Proof.Gen.KernelIdeal.Skeleton
import proofs.«431350_j79843442032663_3_alg».proof.Proof.Gen.KernelIdeal.Launch
import proofs.«431350_j79843442032663_3_alg».proof.Proof.Gen.KernelIdeal.Points
import proofs.«431350_j79843442032663_3_alg».proof.Proof.Gen.KernelIdeal.Frame
import proofs.«431350_j79843442032663_3_alg».proof.Proof.Gen.ReferenceIdeal
import proofs.«431350_j79843442032663_3_alg».proof.Proof.Gen.Pre_finite_inputs
import proofs.«431350_j79843442032663_3_alg».proof.Proof.Gen.ReferenceIdeal.Run
import proofs.«431350_j79843442032663_3_alg».proof.Proof.Gen.ReferenceIdeal.Read
import proofs.«431350_j79843442032663_3_alg».proof.Proof.CellSpec
import proofs.«431350_j79843442032663_3_alg».proof.Proof.KernelValue
import proofs.«431350_j79843442032663_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Cell

/-! ## The gates: one term in both programs -/

theorem inGate_eq (x0 : FVec Ideal Cert.ReferenceIdeal.S2048x1 .f32) (x9 : FVec Ideal Cert.ReferenceIdeal.S1x2048 .f32) (x10 : FVec Ideal Cert.ReferenceIdeal.S1 .f32) :
    Cert.ReferenceIdeal.Read.val_main_v11 (F := Ideal) x0 x9 x10 = Cert.KernelIdeal.CellValue.expGateArr x9 x0 x10 := rfl
theorem fgGate_eq (x0 : FVec Ideal Cert.ReferenceIdeal.S2048x1 .f32) (x11 : FVec Ideal Cert.ReferenceIdeal.S1x2048 .f32) (x12 : FVec Ideal Cert.ReferenceIdeal.S1 .f32) :
    Cert.ReferenceIdeal.Read.val_main_v15 (F := Ideal) x0 x11 x12 = Cert.KernelIdeal.CellValue.expGateArr x11 x0 x12 := rfl
theorem outGate_eq (x0 : FVec Ideal Cert.ReferenceIdeal.S2048x1 .f32) (x13 : FVec Ideal Cert.ReferenceIdeal.S1x2048 .f32) (x14 : FVec Ideal Cert.ReferenceIdeal.S1 .f32) :
    Cert.ReferenceIdeal.Read.val_main_v50 (F := Ideal) x0 x13 x14 = Cert.KernelIdeal.CellValue.sigGateArr x13 x0 x14 := rfl

/-! ## The reference's results over arrays equal to the kernel's arguments -/

/-- The reference's hidden column, over arrays equal to `z`, is the specification's over `z` with the kernel's gates. -/
theorem hidden_of_agree (y0 z0 : FVec Ideal Cert.ReferenceIdeal.S2048x1 .f32) (y1 z1 : FVec Ideal Cert.ReferenceIdeal.S4096x4096 .f32) (y2 z2 : FVec Ideal Cert.ReferenceIdeal.S4096x1 .f32) (y3 z3 : FVec Ideal Cert.ReferenceIdeal.S4096x2048 .f32) (y4 z4 : FVec Ideal Cert.ReferenceIdeal.S4096x1 .f32) (y5 z5 : FVec Ideal Cert.ReferenceIdeal.S4096x2048 .f32) (y6 z6 : FVec Ideal Cert.ReferenceIdeal.S4096x1 .f32) (y7 z7 : FVec Ideal Cert.ReferenceIdeal.S4096x2048 .f32) (y8 z8 : FVec Ideal Cert.ReferenceIdeal.S4096x1 .f32) (y9 z9 : FVec Ideal Cert.ReferenceIdeal.S1x2048 .f32) (y10 z10 : FVec Ideal Cert.ReferenceIdeal.S1 .f32) (y11 z11 : FVec Ideal Cert.ReferenceIdeal.S1x2048 .f32) (y12 z12 : FVec Ideal Cert.ReferenceIdeal.S1 .f32) (y13 z13 : FVec Ideal Cert.ReferenceIdeal.S1x2048 .f32) (y14 z14 : FVec Ideal Cert.ReferenceIdeal.S1 .f32)
    (e0 : y0 = z0) (e1 : y1 = z1) (e2 : y2 = z2) (e3 : y3 = z3) (e4 : y4 = z4) (e5 : y5 = z5) (e6 : y6 = z6) (e7 : y7 = z7) (e8 : y8 = z8) (e9 : y9 = z9) (e10 : y10 = z10) (e11 : y11 = z11) (e12 : y12 = z12) (e13 : y13 = z13) (e14 : y14 = z14) :
    Cert.ReferenceIdeal.Read.val_main_v52 (F := Ideal) y0 y1 y2 y3 y4 y5 y6 y7 y8 y9 y10 y11 y12 y13 y14
      = newH (Cert.KernelIdeal.CellValue.expGateArr z11 z0 z12) (Cert.KernelIdeal.CellValue.expGateArr z9 z0 z10) (Cert.KernelIdeal.CellValue.sigGateArr z13 z0 z14)
          z0 z1 z2 z3 z4 z5 z6 z7 z8 := by
  subst e0 e1 e2 e3 e4 e5 e6 e7 e8 e9 e10 e11 e12 e13 e14
  rw [Cert.ReferenceIdeal.RefValue.hidden_eq, fgGate_eq, inGate_eq, outGate_eq]

/-- The reference's memory likewise. -/
theorem memory_of_agree (y0 z0 : FVec Ideal Cert.ReferenceIdeal.S2048x1 .f32) (y1 z1 : FVec Ideal Cert.ReferenceIdeal.S4096x4096 .f32) (y5 z5 : FVec Ideal Cert.ReferenceIdeal.S4096x2048 .f32) (y6 z6 : FVec Ideal Cert.ReferenceIdeal.S4096x1 .f32) (y7 z7 : FVec Ideal Cert.ReferenceIdeal.S4096x2048 .f32) (y8 z8 : FVec Ideal Cert.ReferenceIdeal.S4096x1 .f32) (y9 z9 : FVec Ideal Cert.ReferenceIdeal.S1x2048 .f32) (y10 z10 : FVec Ideal Cert.ReferenceIdeal.S1 .f32) (y11 z11 : FVec Ideal Cert.ReferenceIdeal.S1x2048 .f32) (y12 z12 : FVec Ideal Cert.ReferenceIdeal.S1 .f32)
    (e0 : y0 = z0) (e1 : y1 = z1) (e5 : y5 = z5) (e6 : y6 = z6) (e7 : y7 = z7) (e8 : y8 = z8) (e9 : y9 = z9) (e10 : y10 = z10) (e11 : y11 = z11) (e12 : y12 = z12) :
    Cert.ReferenceIdeal.Read.val_main_v27 (F := Ideal) y0 y1 y5 y6 y7 y8 y9 y10 y11 y12
      = newC (Cert.KernelIdeal.CellValue.expGateArr z11 z0 z12) (Cert.KernelIdeal.CellValue.expGateArr z9 z0 z10) z0 z1 z5 z6 z7 z8 := by
  subst e0 e1 e5 e6 e7 e8 e9 e10 e11 e12
  rw [Cert.ReferenceIdeal.RefValue.memory_eq, fgGate_eq, inGate_eq]

/-- The reference's normalizer likewise. -/
theorem normalizer_of_agree (y0 z0 : FVec Ideal Cert.ReferenceIdeal.S2048x1 .f32) (y2 z2 : FVec Ideal Cert.ReferenceIdeal.S4096x1 .f32) (y5 z5 : FVec Ideal Cert.ReferenceIdeal.S4096x2048 .f32) (y6 z6 : FVec Ideal Cert.ReferenceIdeal.S4096x1 .f32) (y9 z9 : FVec Ideal Cert.ReferenceIdeal.S1x2048 .f32) (y10 z10 : FVec Ideal Cert.ReferenceIdeal.S1 .f32) (y11 z11 : FVec Ideal Cert.ReferenceIdeal.S1x2048 .f32) (y12 z12 : FVec Ideal Cert.ReferenceIdeal.S1 .f32)
    (e0 : y0 = z0) (e2 : y2 = z2) (e5 : y5 = z5) (e6 : y6 = z6) (e9 : y9 = z9) (e10 : y10 = z10) (e11 : y11 = z11) (e12 : y12 = z12) :
    Cert.ReferenceIdeal.Read.val_main_v33 (F := Ideal) y0 y2 y5 y6 y9 y10 y11 y12
      = newN (Cert.KernelIdeal.CellValue.expGateArr z11 z0 z12) (Cert.KernelIdeal.CellValue.expGateArr z9 z0 z10) z0 z2 z5 z6 := by
  subst e0 e2 e5 e6 e9 e10 e11 e12
  rw [Cert.ReferenceIdeal.RefValue.normalizer_eq, fgGate_eq, inGate_eq]

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Both programs, from memories agreeing on the arguments, end with the specification's hidden column, memory and
    normalizer of those arguments. -/
theorem algebraic : Cert.algebraic_KernelIdeal_ReferenceIdeal := by
  intro m ρ m' ρ' _ hagree
  refine ⟨_, _, _, Cert.KernelIdeal.CellValue.run m ρ, ?_⟩
  refine (θ_run Cert.ReferenceIdeal.defs _ _).mono (fun r h c => ?_) (Cert.ReferenceIdeal.Value.run (F := Ideal) m' ρ')
  obtain ⟨h0, h1, h2, hargs⟩ := h c
  obtain ⟨a0, a1, a2, a3, a4, a5, a6, a7, a8, a9, a10, a11, a12, a13, a14⟩ := hagree c
  exact ⟨h0.trans ((Cert.ReferenceIdeal.Read.val_main_v52_eq (F := Ideal) _ _ _ _ _ _ _ _ _ _ _ _ _ _ _).trans
        (hidden_of_agree _ _ _ _ _ _ _ _ _ _ _ _ _ _ _ _ _ _ _ _ _ _ _ _ _ _ _ _ _ _ a0 a1 a2 a3 a4 a5 a6 a7 a8 a9 a10 a11 a12 a13 a14)),
    h1.trans ((Cert.ReferenceIdeal.Read.val_main_v27_eq (F := Ideal) _ _ _ _ _ _ _ _ _ _).trans
        (memory_of_agree _ _ _ _ _ _ _ _ _ _ _ _ _ _ _ _ _ _ _ _ a0 a1 a5 a6 a7 a8 a9 a10 a11 a12)),
    h2.trans ((Cert.ReferenceIdeal.Read.val_main_v33_eq (F := Ideal) _ _ _ _ _ _ _ _).trans
        (normalizer_of_agree _ _ _ _ _ _ _ _ _ _ _ _ _ _ _ _ a0 a2 a5 a6 a9 a10 a11 a12)),
    hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
